-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x128256 : Shape := ⟨3, ![1, 2048, 128256]⟩
abbrev S1x2048 : Shape := ⟨2, ![1, 2048]⟩
abbrev S_ : Shape := ⟨0, ![]⟩

class Facts : Prop where
  bitsLt_bf16_f32 : FTy.bits .bf16 < FTy.bits .f32
  bcast_S_S1x2048x128256 : S_.BroadcastsInDim S1x2048x128256 (![] : Fin 0 → Fin S1x2048x128256.rank)
  reducesTo_S1x2048x128256_S_d0_1_2 : S1x2048x128256.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S1x2048x128256 .bf16) (main_arg1 : FVec F S1x2048 .f32) (main_arg2 : IVec S1x2048 32) : IVec S_ 1 :=
  let main_v0 : FVec F S1x2048x128256 .f32 := (extf .f32 · bitsLt_bf16_f32) main_arg0
  let main_v1 : FVec F S1x2048x128256 .f32 := Host.absf main_v0
  let main_cst : FVec F S_ .f32 := constant S_ .f32 0x7F800000#32
  let main_v2 : FVec F S1x2048x128256 .f32 := broadcastInDim S1x2048x128256 ![] bcast_S_S1x2048x128256 main_cst
  let main_v3 : IVec S1x2048x128256 1 := cmpf .olt main_v1 main_v2
  let main_c : IVec S_ 1 := constantI S_ 1 1#1
  let main_v4 : IVec S_ 1 := (fun x v => Host.reduce IntOp.andi x v reducesTo_S1x2048x128256_S_d0_1_2 h_S_) main_v3 main_c
  let main_v5 : FVec F S1x2048 .f32 := Host.absf main_arg1
  let main_cst_0 : FVec F S_ .f32 := constant S_ .f32 0x7F800000#32
  let main_v6 : FVec F S1x2048 .f32 := broadcastInDim S1x2048 ![] bcast_S_S1x2048 main_cst_0
  let main_v7 : IVec S1x2048 1 := cmpf .olt main_v5 main_v6
  let main_c_1 : IVec S_ 1 := constantI S_ 1 1#1
  let main_v8 : IVec S_ 1 := (fun x v => Host.reduce IntOp.andi x v reducesTo_S1x2048_S_d0_1 h_S_) main_v7 main_c_1
  let main_v9 : IVec S_ 1 := andi main_v4 main_v8
  main_v9
-- ==== Kernel.lean ====
abbrev S1x2048x128256 : Shape := ⟨3, ![1, 2048, 128256]⟩
abbrev S1x2048 : Shape := ⟨2, ![1, 2048]⟩
abbrev S2048x128256 : Shape := ⟨2, ![2048, 128256]⟩
abbrev S2048x1 : Shape := ⟨2, ![2048, 1]⟩
abbrev S64x42752 : Shape := ⟨2, ![64, 42752]⟩
abbrev S64x1 : Shape := ⟨2, ![64, 1]⟩
abbrev S64x21376 : Shape := ⟨2, ![64, 21376]⟩
abbrev S64 : Shape := ⟨1, ![64]⟩
abbrev S_ : Shape := ⟨0, ![]⟩

abbrev nBuf : Space → Nat
  | .hbm => 16
  | .vmem => 11
  | .smem => 0
  | _ => 0

abbrev bufTy : (tb : Table) → Fin (tcTables nBuf tb) → BufTy
  | .hbm, ⟨0, _⟩ => ⟨S1x2048x128256, .bf16⟩
  | .hbm, ⟨1, _⟩ => ⟨S1x2048, .f32⟩
  | .hbm, ⟨2, _⟩ => ⟨S1x2048, .i32⟩
  | .hbm, ⟨3, _⟩ => ⟨S2048x128256, .bf16⟩
  | .hbm, ⟨4, _⟩ => ⟨S2048x1, .i32⟩
  | .hbm, ⟨5, _⟩ => ⟨S2048x1, .f32⟩
  | .hbm, ⟨6, _⟩ => ⟨S2048x1, .f32⟩
  | .hbm, ⟨7, _⟩ => ⟨S_, .f32⟩
  | .hbm, ⟨8, _⟩ => ⟨S_, .f32⟩
  | .hbm, ⟨9, _⟩ => ⟨S_, .i32⟩
  | .hbm, ⟨10, _⟩ => ⟨S1x2048, .i32⟩
  | .hbm, ⟨11, _⟩ => ⟨S1x2048, .i1⟩
  | .hbm, ⟨12, _⟩ => ⟨S1x2048, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S64x42752, .bf16⟩
  | .local _ .vmem, ⟨1, _⟩ => ⟨S64x42752, .bf16⟩
  | .local _ .vmem, ⟨2, _⟩ => ⟨S64x1, .i32⟩
  | .local _ .vmem, ⟨3, _⟩ => ⟨S64x1, .i32⟩
  | .local _ .vmem, ⟨4, _⟩ => ⟨S64x1, .f32⟩
  | .local _ .vmem, ⟨5, _⟩ => ⟨S64x1, .f32⟩
  | .local _ .vmem, ⟨6, _⟩ => ⟨S64x1, .f32⟩
  | .local _ .vmem, ⟨7, _⟩ => ⟨S64x1, .f32⟩
  | .local _ .vmem, ⟨8, _⟩ => ⟨S64x1, .f32⟩
  | .local _ .vmem, ⟨9, _⟩ => ⟨S64x1, .f32⟩
  | .local _ .vmem, ⟨10, _⟩ => ⟨S64x1, .f32⟩
  | _, _ => ⟨S1x2048x128256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 3], ![false, false]⟩

@[reducible] def k0_t1_loop : Scf.Loop 32 :=
  let c0_i32_3 : BitVec 32 := 0#32
  let c2_i32 : BitVec 32 := 2#32
  let v9 : BitVec 32 := Scalar.addi c0_i32_3 c2_i32
  let c1_i32 : BitVec 32 := 1#32
  ⟨c0_i32_3, v9, c1_i32⟩
def k0_mult1 (k0_t1 : Fin k0_t1_loop.trips) : BitVec 32 :=
  let c0_i32_8 : BitVec 32 := 0#32
  let c0_i32_3 : BitVec 32 := 0#32
  let c1_i32 : BitVec 32 := 1#32
  let arg9 : BitVec 32 := Scf.iv c0_i32_3 c1_i32 k0_t1
  let c1_i32_7 : BitVec 32 := 1#32
  let v13 : BitVec 32 := Scalar.muli arg9 c1_i32_7
  let v14 : BitVec 32 := Scalar.addi c0_i32_8 v13
  let c21376_i32 : BitVec 32 := 21376#32
  let v15 : BitVec 32 := Scalar.muli v14 c21376_i32
  v15
def k0_off1 (k0_t1 : Fin k0_t1_loop.trips) : Fin 2 → Nat :=
  let c0_9 : Index := 0#32
  let c0_i32_8 : BitVec 32 := 0#32
  let c0_i32_3 : BitVec 32 := 0#32
  let c1_i32 : BitVec 32 := 1#32
  let arg9 : BitVec 32 := Scf.iv c0_i32_3 c1_i32 k0_t1
  let c1_i32_7 : BitVec 32 := 1#32
  let v13 : BitVec 32 := Scalar.muli arg9 c1_i32_7
  let v14 : BitVec 32 := Scalar.addi c0_i32_8 v13
  let c21376_i32 : BitVec 32 := 21376#32
  let v15 : BitVec 32 := Scalar.muli v14 c21376_i32
  let v16 : BitVec 32 := v15
  let v17 : Index := Scalar.indexCast v16
  ![0, v17.toNat]
def k0_cond2 (i : grid0.Coords) : BitVec 1 :=
  let arg1 : BitVec 32 := BitVec.ofNat 32 (i 1).val
  let c2_i32_5 : BitVec 32 := 2#32
  let v10 : BitVec 1 := Scalar.cmpi .eq arg1 c2_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S64x42752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1x2048x128256_S2048x128256 : S1x2048x128256.ShapeCasts S2048x128256
  shapeCasts_S1x2048_S2048x1 : S1x2048.ShapeCasts S2048x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  h_S64x21376 : 0 < S64x21376.numel
  shapeCasts_S64x21376_S64x21376 : S64x21376.ShapeCasts S64x21376
  reduces_S64x21376_S64 : S64x21376.Reduces [1] S64
  shapeCasts_S64_S64x1 : S64.ShapeCasts S64x1
  bitsLt_bf16_f32 : FTy.bits .bf16 < FTy.bits .f32
  broadcasts_S64x1_S64x21376 : S64x1.Broadcasts S64x21376
  iota_S64x21376_d1_w32 : S64x21376.Iotas .tc 32 [1]
  reducesTo_S2048x1_S_d0_1 : S2048x1.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S64x21376.size a ≤ S64x42752.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x42752.size a ≤ S2048x128256.size a
  hwx0_0 : ∀ i : grid0.Coords, EltTy.bits .bf16 = 32 ∨ (Rect.block (s := S2048x128256) S64x42752.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S2048x1.size a
  hwx0_1 : ∀ i : grid0.Coords, EltTy.bits .i32 = 32 ∨ (Rect.block (s := S2048x1) S64x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S2048x1.size a
  hwx0_2 : ∀ i : grid0.Coords, EltTy.bits .f32 = 32 ∨ (Rect.block (s := S2048x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S2048x1.size a
  hwx0_3 : ∀ i : grid0.Coords, EltTy.bits .f32 = 32 ∨ (Rect.block (s := S2048x1) S64x1.size (cc0_transform_3 i) (hinb0_3 i)).WholeWords (EltTy.packing .f32)

variable [Facts₀]

abbrev win0_0 : Pipeline.Window sig grid0 :=
  Pipeline.Window.ofSpec (Memref.whole main_v0) S64x42752.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1x2048x128256 : Shape := ⟨3, ![1, 2048, 128256]⟩
abbrev S1x2048 : Shape := ⟨2, ![1, 2048]⟩
abbrev S_ : Shape := ⟨0, ![]⟩
abbrev S1x2048x1 : Shape := ⟨3, ![1, 2048, 1]⟩
abbrev S2048x1x1 : Shape := ⟨3, ![2048, 1, 1]⟩
abbrev S1 : Shape := ⟨1, ![1]⟩
abbrev S1x1x1 : Shape := ⟨3, ![1, 1, 1]⟩
abbrev S2048x1 : Shape := ⟨2, ![2048, 1]⟩

abbrev nBuf : Space → Nat
  | .hbm => 79
  | .vmem => 0
  | .smem => 0
  | _ => 0

abbrev bufTy : (tb : Table) → Fin (tcTables nBuf tb) → BufTy
  | .hbm, ⟨0, _⟩ => ⟨S1x2048x128256, .bf16⟩
  | .hbm, ⟨1, _⟩ => ⟨S1x2048, .f32⟩
  | .hbm, ⟨2, _⟩ => ⟨S1x2048, .i32⟩
  | .hbm, ⟨3, _⟩ => ⟨S1x2048x128256, .f32⟩
  | .hbm, ⟨4, _⟩ => ⟨S_, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S1x2048x1, .f32⟩
  | .hbm, ⟨10, _⟩ => ⟨S1x2048x128256, .f32⟩
  | .hbm, ⟨11, _⟩ => ⟨S1x2048x128256, .f32⟩
  | .hbm, ⟨12, _⟩ => ⟨S1x2048x128256, .f32⟩
  | .hbm, ⟨13, _⟩ => ⟨S_, .f32⟩
  | .hbm, ⟨14, _⟩ => ⟨S1x2048, .f32⟩
  | .hbm, ⟨15, _⟩ => ⟨S1x2048x1, .f32⟩
  | .hbm, ⟨16, _⟩ => ⟨S1x2048x1, .f32⟩
  | .hbm, ⟨17, _⟩ => ⟨S1x2048x128256, .f32⟩
  | .hbm, ⟨18, _⟩ => ⟨S1x2048x128256, .f32⟩
  | .hbm, ⟨19, _⟩ => ⟨S_, .i32⟩
  | .hbm, ⟨20, _⟩ => ⟨S1x2048, .i32⟩
  | .hbm, ⟨21, _⟩ => ⟨S1x2048, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1x2048, .i32⟩
  | .hbm, ⟨26, _⟩ => ⟨S1x2048, .i32⟩
  | .hbm, ⟨27, _⟩ => ⟨S_, .i32⟩
  | .hbm, ⟨28, _⟩ => ⟨S1x2048, .i32⟩
  | .hbm, ⟨29, _⟩ => ⟨S1x2048, .i32⟩
  | .hbm, ⟨30, _⟩ => ⟨S1x2048x1, .i32⟩
  | .hbm, ⟨31, _⟩ => ⟨S_, .i32⟩
  | .hbm, ⟨32, _⟩ => ⟨S1x2048x1, .i32⟩
  | .hbm, ⟨33, _⟩ => ⟨S1x2048x1, .i1⟩
  | .hbm, ⟨34, _⟩ => ⟨S_, .i32⟩
  | .hbm, ⟨35, _⟩ => ⟨S1x2048x1, .i32⟩
  | .hbm, ⟨36, _⟩ => ⟨S1x2048x1, .i32⟩
  | .hbm, ⟨37, _⟩ => ⟨S1x2048x1, .i32⟩
  | .hbm, ⟨38, _⟩ => ⟨S2048x1x1, .i32⟩
  | .hbm, ⟨39, _⟩ => ⟨S1, .i32⟩
  | .hbm, ⟨40, _⟩ => ⟨S_, .i32⟩
  | .hbm, ⟨41, _⟩ => ⟨S2048x1x1, .i32⟩
  | .hbm, ⟨42, _⟩ => ⟨S2048x1x1, .i1⟩
  | .hbm, ⟨43, _⟩ => ⟨S1x1x1, .i32⟩
  | .hbm, ⟨44, _⟩ => ⟨S2048x1x1, .i32⟩
  | .hbm, ⟨45, _⟩ => ⟨S2048x1x1, .i1⟩
  | .hbm, ⟨46, _⟩ => ⟨S2048x1x1, .i1⟩
  | .hbm, ⟨47, _⟩ => ⟨S_, .i1⟩
  | .hbm, ⟨48, _⟩ => ⟨S2048x1, .i1⟩
  | .hbm, ⟨49, _⟩ => ⟨S1x2048x1, .f32⟩
  | .hbm, ⟨50, _⟩ => ⟨S1x2048x1, .i1⟩
  | .hbm, ⟨51, _⟩ => ⟨S_, .f32⟩
  | .hbm, ⟨52, _⟩ => ⟨S1x2048x1, .f32⟩
  | .hbm, ⟨53, _⟩ => ⟨S1x2048x1, .f32⟩
  | .hbm, ⟨54, _⟩ => ⟨S1x2048, .f32⟩
  | .hbm, ⟨55, _⟩ => ⟨S1x2048, .f32⟩
  | .hbm, ⟨56, _⟩ => ⟨S_, .f32⟩
  | .hbm, ⟨57, _⟩ => ⟨S_, .f32⟩
  | .hbm, ⟨58, _⟩ => ⟨S1x2048, .f32⟩
  | .hbm, ⟨59, _⟩ => ⟨S1x2048, .f32⟩
  | .hbm, ⟨60, _⟩ => ⟨S1x2048, .f32⟩
  | .hbm, ⟨61, _⟩ => ⟨S1x2048, .f32⟩
  | .hbm, ⟨62, _⟩ => ⟨S_, .f32⟩
  | .hbm, ⟨63, _⟩ => ⟨S_, .f32⟩
  | .hbm, ⟨64, _⟩ => ⟨S1x2048, .f32⟩
  | .hbm, ⟨65, _⟩ => ⟨S1x2048, .f32⟩
  | .hbm, ⟨66, _⟩ => ⟨S_, .f32⟩
  | .hbm, ⟨67, _⟩ => ⟨S_, .f32⟩
  | .hbm, ⟨68, _⟩ => ⟨S1x2048, .f32⟩
  | .hbm, ⟨69, _⟩ => ⟨S1x2048, .f32⟩
  | .hbm, ⟨70, _⟩ => ⟨S1x2048, .f32⟩
  | .hbm, ⟨71, _⟩ => ⟨S_, .f32⟩
  | .hbm, ⟨72, _⟩ => ⟨S_, .f32⟩
  | .hbm, ⟨73, _⟩ => ⟨S1x2048, .i1⟩
  | .hbm, ⟨74, _⟩ => ⟨S1x2048, .i32⟩
  | .hbm, ⟨75, _⟩ => ⟨S_, .i32⟩
  | .hbm, ⟨76, _⟩ => ⟨S_, .i32⟩
  | .hbm, ⟨77, _⟩ => ⟨S_, .f32⟩
  | .hbm, ⟨78, _⟩ => ⟨S_, .f32⟩
  | _, _ => ⟨S1x2048x128256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_c_1 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v4 : Ref sig .tc := ⟨.hbm, 29, rfl⟩
abbrev main_v5 : Ref sig .tc := ⟨.hbm, 30, rfl⟩
abbrev main_call2_c : Ref sig .tc := ⟨.hbm, 31, rfl⟩
abbrev main_call2_v0 : Ref sig .tc := ⟨.hbm, 32, rfl⟩
abbrev main_call2_v1 : Ref sig .tc := ⟨.hbm, 33, rfl⟩
abbrev main_call2_c_0 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_c_1 : Ref sig .tc := ⟨.hbm, 39, rfl⟩
abbrev main_call2_c_2 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_3 : Ref sig .tc := ⟨.hbm, 47, rfl⟩
abbrev main_call2_v12 : Ref sig .tc := ⟨.hbm, 48, rfl⟩
abbrev main_call2_v13 : Ref sig .tc := ⟨.hbm, 49, rfl⟩
abbrev main_call2_v14 : Ref sig .tc := ⟨.hbm, 50, rfl⟩
abbrev main_call2_cst : Ref sig .tc := ⟨.hbm, 51, rfl⟩
abbrev main_call2_v15 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_cst : Ref sig .tc := ⟨.hbm, 56, rfl⟩
abbrev main_call3_v0 : Ref sig .tc := ⟨.hbm, 57, rfl⟩
abbrev main_call3_v1 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_cst_2 : Ref sig .tc := ⟨.hbm, 62, rfl⟩
abbrev main_call4_v0 : Ref sig .tc := ⟨.hbm, 63, rfl⟩
abbrev main_call4_v1 : Ref sig .tc := ⟨.hbm, 64, rfl⟩
abbrev main_v12 : Ref sig .tc := ⟨.hbm, 65, rfl⟩
abbrev main_cst_3 : Ref sig .tc := ⟨.hbm, 66, rfl⟩
abbrev main_call5_v0 : Ref sig .tc := ⟨.hbm, 67, rfl⟩
abbrev main_call5_v1 : Ref sig .tc := ⟨.hbm, 68, rfl⟩
abbrev main_v13 : Ref sig .tc := ⟨.hbm, 69, rfl⟩
abbrev main_v14 : Ref sig .tc := ⟨.hbm, 70, rfl⟩
abbrev main_cst_4 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_c_5 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩

abbrev nD : Nat := 1
abbrev τ : Topo := Topo.v7x

variable {F : FTy → Type} [FloatOps F]

class Facts₀ : Prop where
  bitsLt_bf16_f32 : FTy.bits .bf16 < FTy.bits .f32
  reducesTo_S1x2048x128256_S1x2048_d2 : S1x2048x128256.ReducesTo [2] S1x2048
  h_S_ : 0 < S_.numel
  bcast_S_S1x2048 : S_.BroadcastsInDim S1x2048 (![] : Fin 0 → Fin S1x2048.rank)
  bcast_S1x2048_S1x2048x1_0_1 : S1x2048.BroadcastsInDim S1x2048x1 (![0, 1] : Fin 2 → Fin S1x2048x1.rank)
  bcast_S1x2048x1_S1x2048x128256_0_1_2 : S1x2048x1.BroadcastsInDim S1x2048x128256 (![0, 1, 2] : Fin 3 → Fin S1x2048x128256.rank)
  bcast_S_S1x2048x1 : S_.BroadcastsInDim S1x2048x1 (![] : Fin 0 → Fin S1x2048x1.rank)
  shapeCasts_S1x2048x1_S2048x1x1 : S1x2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  bcast_S2048x1_S1x2048x1_1_2 : S2048x1.BroadcastsInDim S1x2048x1 (![1, 2] : Fin 2 → Fin S1x2048x1.rank)
  shapeCasts_S1x2048x1_S1x2048 : S1x2048x1.ShapeCasts S1x2048
  reducesTo_S1x2048_S_d0_1 : S1x2048.ReducesTo [0, 1] S_
  natLt_1_32 : 1 < 32
  gather_S1x2048x128256_S2048x1x1_S1x2048x1_0_2_1_0_2_2_111_wf : GatherDims.WF S1x2048x128256 S2048x1x1 S1x2048x1 [0] [2] [1] [2] [0] 2 ![1, 1, 1]

variable [Facts₀]

def gather_S1x2048x128256_S2048x1x1_S1x2048x1_0_2_1_0_2_2_111 : GatherDims S1x2048x128256 S2048x1x1 S1x2048x1 where
  offsetDims := [0]
  collapsedSliceDims := [2]
  operandBatchingDims := [1]
  startIndicesBatchingDims := [0]
  startIndexMap := [2]
  indexVectorDim := 2
  sliceSizes := ![1, 1, 1]
  wf := gather_S1x2048x128256_S2048x1x1_S1x2048x1_0_2_1_0_2_2_111_wf

class Facts : Prop extends Facts₀ where

variable [Facts]
-- ==== Proof.Pieces.lean ====
import proofs.«414979_j79559974191144_3_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

theorem trips_eq : k0_t1_loop.trips = 2 := by decide +kernel

/-- The two trips of the body's loop. -/
def t0 : Fin k0_t1_loop.trips := ⟨0, by rw [trips_eq]; omega⟩
def t1 : Fin k0_t1_loop.trips := ⟨1, by rw [trips_eq]; omega⟩

theorem hz64x1 : (![0, 0] : Fin 2 → Nat) = fun _ => 0 := by
  funext a; fin_cases a <;> rfl

/-- The whole-block rectangle of a [64,1] scratch. -/
abbrev W : Rect S64x1 := Rect.unit (s := S64x1) ![0, 0] S64x1.size inb_S64x1_S64x1_0_0

/-- The lanes of the logits block that trip `k` loads. -/
def chunk (x0 : Vec F S64x42752 .bf16) (k : Fin k0_t1_loop.trips) : Vec F S64x21376 .bf16 :=
  View.ld x0 (Rect.unit (s := S64x42752) (k0_off1 k) S64x21376.size (k0_off1_inb k))

/-- One trip's updates of the three running columns, as functions of the block, the labels block and the columns found. -/
def tripM (x0 : Vec F S64x42752 .bf16) (k : Fin k0_t1_loop.trips) (m : Vec F S64x1 .f32) : Vec F S64x1 .f32 :=
  k0_pay12 (chunk x0 k) m
def tripL (x0 : Vec F S64x42752 .bf16) (k : Fin k0_t1_loop.trips) (m l : Vec F S64x1 .f32) : Vec F S64x1 .f32 :=
  k0_pay11 (chunk x0 k) m l
def tripS (arg1 : BitVec 32) (x0 : Vec F S64x42752 .bf16) (x1 : Vec F S64x1 .i32) (k : Fin k0_t1_loop.trips) (s : Vec F S64x1 .f32) : Vec F S64x1 .f32 :=
  k0_pay6 (k0_pay10 (chunk x0 k)) (k0_pay13 arg1 0#32 1#32 k) (k0_pay14 (k0_pay5 x1)) s

/-- What one trip stores, read off the trip's run: one whole-block piece per running column. -/
theorem tripL_eq (𝒱 : Variants) (c : Dev nD) (bd : Option 𝒱.V) (i : grid0.Coords) (arg2 : Memref sig .tc .vmem S64x42752 .bf16) (harg2 : arg2.IsWhole) (arg3 : Memref sig .tc .vmem S64x1 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x1 .f32) (harg8 : arg8.IsWhole) (arg1 : BitVec 32) (v3 : Vec F S64x1 .i32) (X_arg2 : BufTy.Contents (Elt F) arg2.view.ty) (k : Fin k0_t1_loop.trips)
    (f6 : BufTy.Contents (Elt F) arg6.view.ty) (f7 : BufTy.Contents (Elt F) arg7.view.ty) (f8 : BufTy.Contents (Elt F) arg8.view.ty) :
    tripL_k0_t1 (F := F) 𝒱 c bd i arg2 harg2 arg3 harg3 arg4 harg4 arg5 harg5 arg6 harg6 arg7 harg7 arg8 harg8 arg1 v3 X_arg2 k f6 f7 f8
      = ([⟨W, tripM (arg2.view.read (Elt F) X_arg2) k (arg6.view.read (Elt F) f6)⟩],
         [⟨W, tripL (arg2.view.read (Elt F) X_arg2) k (arg6.view.read (Elt F) f6) (arg7.view.read (Elt F) f7)⟩],
         [⟨W, tripS arg1 (arg2.view.read (Elt F) X_arg2) v3 k (arg8.view.read (Elt F) f8)⟩]) := by
  unfold tripL_k0_t1
  unfold trip_k0_t1
  dsimp only
  sl_unfold_words
  simp only [View.readAt_eq_ld, View.ld_unit_zero (S := S64x1) hz64x1]
  rfl

/-- After a list of stores whose LAST is a whole-block store, the buffer reads that store's payload. -/
theorem read_writes_whole {sig' : RefSig} {κ : Kind} {sp : Space} (v : View sig' κ sp S64x1 .f32) (f : v.ty.Contents (Elt F))
    (w : S64x1.Idx → Elt F .f32) (L : List (View.Piece (Elt F) S64x1 .f32)) :
    v.read (Elt F) (v.writes (Elt F) f ((⟨W, w⟩ : View.Piece (Elt F) S64x1 .f32) :: L)) = w :=
  (View.read_writes_eq_canon (Val := Elt F) v f ((⟨W, w⟩ : View.Piece (Elt F) S64x1 .f32) :: L)
      (fun y => ⟨(⟨W, w⟩ : View.Piece (Elt F) S64x1 .f32), List.mem_cons_self,
        View.mem_set_unit_zero (S := S64x1) hz64x1 inb_S64x1_S64x1_0_0 y⟩)).trans
    (View.canon_cons_unit_zero (Val := Elt F) (S := S64x1) (e := .f32) hz64x1 inb_S64x1_S64x1_0_0 w L)

/-- The three running columns after both trips of the loop, from the columns found at loop entry. -/
def loopM (x0 : Vec F S64x42752 .bf16) (m : Vec F S64x1 .f32) : Vec F S64x1 .f32 :=
  tripM x0 t1 (tripM x0 t0 m)
def loopL (x0 : Vec F S64x42752 .bf16) (m l : Vec F S64x1 .f32) : Vec F S64x1 .f32 :=
  tripL x0 t1 (tripM x0 t0 m) (tripL x0 t0 m l)
def loopS (arg1 : BitVec 32) (x0 : Vec F S64x42752 .bf16) (x1 : Vec F S64x1 .i32) (s : Vec F S64x1 .f32) : Vec F S64x1 .f32 :=
  tripS arg1 x0 x1 t1 (tripS arg1 x0 x1 t0 s)

/-- The pieces the loop's two trips leave, last first, over any contents at loop entry. -/
theorem pb_two (𝒱 : Variants) (c : Dev nD) (bd : Option 𝒱.V) (i : grid0.Coords) (arg2 : Memref sig .tc .vmem S64x42752 .bf16) (harg2 : arg2.IsWhole) (arg3 : Memref sig .tc .vmem S64x1 .i32) (harg3 : arg3.IsWhole) (arg4 : Memref sig .tc .vmem S64x1 .f32) (harg4 : arg4.IsWhole) (arg5 : Memref sig .tc .vmem S64x1 .f32) (harg5 : arg5.IsWhole) (arg6 : Memref sig .tc .vmem S64x1 .f32) (harg6 : arg6.IsWhole) (arg7 : Memref sig .tc .vmem S64x1 .f32) (harg7 : arg7.IsWhole) (arg8 : Memref sig .tc .vmem S64x1 .f32) (harg8 : arg8.IsWhole) (arg1 : BitVec 32) (v3 : Vec F S64x1 .i32) (X : BufTy.Contents (Elt F) arg2.view.ty)
    (G6 : BufTy.Contents (Elt F) arg6.view.ty) (G7 : BufTy.Contents (Elt F) arg7.view.ty) (G8 : BufTy.Contents (Elt F) arg8.view.ty) :
    pb_k0_t1 (F := F) 𝒱 c bd i arg2 harg2 arg3 harg3 arg4 harg4 arg5 harg5 arg6 harg6 arg7 harg7 arg8 harg8 arg1 v3 X G6 G7 G8 2
      = ([⟨W, loopM (arg2.view.read (Elt F) X) (arg6.view.read (Elt F) G6)⟩, ⟨W, tripM (arg2.view.read (Elt F) X) t0 (arg6.view.read (Elt F) G6)⟩],
         [⟨W, loopL (arg2.view.read (Elt F) X) (arg6.view.read (Elt F) G6) (arg7.view.read (Elt F) G7)⟩, ⟨W, tripL (arg2.view.read (Elt F) X) t0 (arg6.view.read (Elt F) G6) (arg7.view.read (Elt F) G7)⟩],
         [⟨W, loopS arg1 (arg2.view.read (Elt F) X) v3 (arg8.view.read (Elt F) G8)⟩, ⟨W, tripS arg1 (arg2.view.read (Elt F) X) v3 t0 (arg8.view.read (Elt F) G8)⟩]) := by
  have h1 : pb_k0_t1 (F := F) 𝒱 c bd i arg2 harg2 arg3 harg3 arg4 harg4 arg5 harg5 arg6 harg6 arg7 harg7 arg8 harg8 arg1 v3 X G6 G7 G8 1
      = ([⟨W, tripM (arg2.view.read (Elt F) X) t0 (arg6.view.read (Elt F) G6)⟩],
         [⟨W, tripL (arg2.view.read (Elt F) X) t0 (arg6.view.read (Elt F) G6) (arg7.view.read (Elt F) G7)⟩],
         [⟨W, tripS arg1 (arg2.view.read (Elt F) X) v3 t0 (arg8.view.read (Elt F) G8)⟩]) := by
    have e := pb_k0_t1_succ (F := F) 𝒱 c bd i arg2 harg2 arg3 harg3 arg4 harg4 arg5 harg5 arg6 harg6 arg7 harg7 arg8 harg8 arg1 v3 X G6 G7 G8 t0
    rw [show t0.val + 1 = 1 from rfl, show t0.val = 0 from rfl] at e
    rw [e, tripL_eq]
    simp only [pb_k0_t1, View.writes_nil, List.append_nil]
  have e := pb_k0_t1_succ (F := F) 𝒱 c bd i arg2 harg2 arg3 harg3 arg4 harg4 arg5 harg5 arg6 harg6 arg7 harg7 arg8 harg8 arg1 v3 X G6 G7 G8 t1
  rw [show t1.val + 1 = 2 from rfl, show t1.val = 1 from rfl] at e
  rw [e, tripL_eq, h1]
  simp only [read_writes_whole, List.singleton_append, loopM, loopL, loopS]

theorem trips_lit : Scf.trips (0#32 : BitVec 32) (Scalar.addi 0#32 2#32) 1#32 = 2 := by decide +kernel
theorem trips_lit' : Scf.trips k0_t1_loop.lb k0_t1_loop.ub k0_t1_loop.st = 2 := by decide +kernel

/-- The same with the rectangle's sizes spelt as the literal. -/
theorem read_writes_whole' {sig' : RefSig} {κ : Kind} {sp : Space} (v : View sig' κ sp S64x1 .f32) (f : v.ty.Contents (Elt F))
    (w : S64x1.Idx → Elt F .f32) (L : List (View.Piece (Elt F) S64x1 .f32)) :
    v.read (Elt F) (v.writes (Elt F) f ((⟨Rect.unit (s := S64x1) ![0, 0] ![64, 1] inb_S64x1_S64x1_0_0, w⟩ : View.Piece (Elt F) S64x1 .f32) :: L)) = w :=
  read_writes_whole v f w L

/-- The three scratch buffers, read back. -/
theorem rd0 (xs : Vec F S64x1 .f32) : View.read (Elt F) (View.whole cc0_scratch0) ((Memref.isWhole_whole cc0_scratch0).unread xs) = xs :=
  Memref.IsWhole.read_unread (Memref.isWhole_whole cc0_scratch0) xs
theorem rd1 (xs : Vec F S64x1 .f32) : View.read (Elt F) (View.whole cc0_scratch1) ((Memref.isWhole_whole cc0_scratch1).unread xs) = xs :=
  Memref.IsWhole.read_unread (Memref.isWhole_whole cc0_scratch1) xs
theorem rd2 (xs : Vec F S64x1 .f32) : View.read (Elt F) (View.whole cc0_scratch2) ((Memref.isWhole_whole cc0_scratch2).unread xs) = xs :=
  Memref.IsWhole.read_unread (Memref.isWhole_whole cc0_scratch2) xs
theorem rw0 (f : (View.whole cc0_scratch0).ty.Contents (Elt F)) (w : S64x1.Idx → Elt F .f32) (L : List (View.Piece (Elt F) S64x1 .f32)) :
    View.read (Elt F) (View.whole cc0_scratch0) ((View.whole cc0_scratch0).writes (Elt F) f ((⟨Rect.unit (s := S64x1) ![0, 0] ![64, 1] inb_S64x1_S64x1_0_0, w⟩ : View.Piece (Elt F) S64x1 .f32) :: L)) = w :=
  read_writes_whole scM0_0.view f w L
theorem rw1 (f : (View.whole cc0_scratch1).ty.Contents (Elt F)) (w : S64x1.Idx → Elt F .f32) (L : List (View.Piece (Elt F) S64x1 .f32)) :
    View.read (Elt F) (View.whole cc0_scratch1) ((View.whole cc0_scratch1).writes (Elt F) f ((⟨Rect.unit (s := S64x1) ![0, 0] ![64, 1] inb_S64x1_S64x1_0_0, w⟩ : View.Piece (Elt F) S64x1 .f32) :: L)) = w :=
  read_writes_whole scM0_1.view f w L
theorem rw2 (f : (View.whole cc0_scratch2).ty.Contents (Elt F)) (w : S64x1.Idx → Elt F .f32) (L : List (View.Piece (Elt F) S64x1 .f32)) :
    View.read (Elt F) (View.whole cc0_scratch2) ((View.whole cc0_scratch2).writes (Elt F) f ((⟨Rect.unit (s := S64x1) ![0, 0] ![64, 1] inb_S64x1_S64x1_0_0, w⟩ : View.Piece (Elt F) S64x1 .f32) :: L)) = w :=
  read_writes_whole scM0_2.view f w L

/-- The closing step shared by the case lemmas: the loop's pieces are the two trips' (`pb_two`), a whole-block store read
    back is its payload, and a whole buffer read back through its whole-block rectangle is its contents. -/
macro "close_case" : tactic => `(tactic|
  (simp only [trips_lit, trips_lit', pb_two, List.cons_append, List.nil_append, read_writes_whole, View.readAt_eq_ld,
      View.ld_unit_zero (S := S64x1) hz64x1, Memref.IsWhole.read_unread, read_writes_whole', rd0, rd1, rd2, rw0, rw1, rw2]))

section Cases
variable (c : Dev nD) (i : grid0.Coords) (arg2 : Memref sig .tc .vmem S64x42752 .bf16) (harg2 : arg2.IsWhole) (arg3 : Memref sig .tc .vmem S64x1 .i32) (harg3 : arg3.IsWhole) (arg4 : Memref sig .tc .vmem S64x1 .f32) (harg4 : arg4.IsWhole) (arg5 : Memref sig .tc .vmem S64x1 .f32) (harg5 : arg5.IsWhole)
  (x0 : Vec F S64x42752 .bf16) (x1 : Vec F S64x1 .i32) (x2 : Vec F S64x1 .f32) (xs0 xs1 xs2 : Vec F S64x1 .f32)

theorem sout_B_0 (hc0 : ¬cond0_0 i) (hc1 : ¬cond0_1 i) :
    sout0_B_0 c i arg2 harg2 arg3 harg3 arg4 harg4 arg5 harg5 scM0_0 (Memref.isWhole_whole _) scM0_1 (Memref.isWhole_whole _) scM0_2 (Memref.isWhole_whole _) hc0 hc1 x0 x1 x2 xs0 xs1 xs2
      = loopM x0 xs0 := by
  unfold sout0_B_0 kernelRun0_B
  dsimp only
  sl_unfold_words
  close_case
theorem sout_B_1 (hc0 : ¬cond0_0 i) (hc1 : ¬cond0_1 i) :
    sout0_B_1 c i arg2 harg2 arg3 harg3 arg4 harg4 arg5 harg5 scM0_0 (Memref.isWhole_whole _) scM0_1 (Memref.isWhole_whole _) scM0_2 (Memref.isWhole_whole _) hc0 hc1 x0 x1 x2 xs0 xs1 xs2
      = loopL x0 xs0 xs1 := by
  unfold sout0_B_1 kernelRun0_B
  dsimp only
  sl_unfold_words
  close_case
theorem sout_B_2 (hc0 : ¬cond0_0 i) (hc1 : ¬cond0_1 i) :
    sout0_B_2 c i arg2 harg2 arg3 harg3 arg4 harg4 arg5 harg5 scM0_0 (Memref.isWhole_whole _) scM0_1 (Memref.isWhole_whole _) scM0_2 (Memref.isWhole_whole _) hc0 hc1 x0 x1 x2 xs0 xs1 xs2
      = loopS (BitVec.ofNat 32 (i 1).val) x0 x1 xs2 := by
  unfold sout0_B_2 kernelRun0_B
  dsimp only
  sl_unfold_words
  close_case

theorem sout_C_0 (hc0 : ¬cond0_0 i) (hc1 : cond0_1 i) :
    sout0_C_0 c i arg2 harg2 arg3 harg3 arg4 harg4 arg5 harg5 scM0_0 (Memref.isWhole_whole _) scM0_1 (Memref.isWhole_whole _) scM0_2 (Memref.isWhole_whole _) hc0 hc1 x0 x1 x2 xs0 xs1 xs2
      = loopM x0 xs0 := by
  unfold sout0_C_0 kernelRun0_C
  dsimp only
  sl_unfold_words
  close_case
theorem sout_C_1 (hc0 : ¬cond0_0 i) (hc1 : cond0_1 i) :
    sout0_C_1 c i arg2 harg2 arg3 harg3 arg4 harg4 arg5 harg5 scM0_0 (Memref.isWhole_whole _) scM0_1 (Memref.isWhole_whole _) scM0_2 (Memref.isWhole_whole _) hc0 hc1 x0 x1 x2 xs0 xs1 xs2
      = loopL x0 xs0 xs1 := by
  unfold sout0_C_1 kernelRun0_C
  dsimp only
  sl_unfold_words
  close_case
theorem sout_C_2 (hc0 : ¬cond0_0 i) (hc1 : cond0_1 i) :
    sout0_C_2 c i arg2 harg2 arg3 harg3 arg4 harg4 arg5 harg5 scM0_0 (Memref.isWhole_whole _) scM0_1 (Memref.isWhole_whole _) scM0_2 (Memref.isWhole_whole _) hc0 hc1 x0 x1 x2 xs0 xs1 xs2
      = loopS (BitVec.ofNat 32 (i 1).val) x0 x1 xs2 := by
  unfold sout0_C_2 kernelRun0_C
  dsimp only
  sl_unfold_words
  close_case
/-- At a row block's last grid step the output block is the final payload of the three running columns after the loop. -/
theorem out_C_3 (hc0 : ¬cond0_0 i) (hc1 : cond0_1 i) :
    out0_C_3 c i arg2 harg2 arg3 harg3 arg4 harg4 arg5 harg5 scM0_0 (Memref.isWhole_whole _) scM0_1 (Memref.isWhole_whole _) scM0_2 (Memref.isWhole_whole _) hc0 hc1 x0 x1 x2 xs0 xs1 xs2
      = k0_pay7 x1 (loopS (BitVec.ofNat 32 (i 1).val) x0 x1 xs2) (loopM x0 xs0) (loopL x0 xs0 xs1) x2 := by
  unfold out0_C_3 kernelRun0_C
  dsimp only
  sl_unfold_words
  close_case

theorem sout_A_0 (hc0 : cond0_0 i) (hc1 : ¬cond0_1 i) :
    sout0_A_0 c i arg2 harg2 arg3 harg3 arg4 harg4 arg5 harg5 scM0_0 (Memref.isWhole_whole _) scM0_1 (Memref.isWhole_whole _) scM0_2 (Memref.isWhole_whole _) hc0 hc1 x0 x1 x2
      = loopM x0 (k0_pay1 (F := F)) := by
  unfold sout0_A_0 kernelRun0_A
  dsimp only
  sl_unfold_words
  close_case
theorem sout_A_1 (hc0 : cond0_0 i) (hc1 : ¬cond0_1 i) :
    sout0_A_1 c i arg2 harg2 arg3 harg3 arg4 harg4 arg5 harg5 scM0_0 (Memref.isWhole_whole _) scM0_1 (Memref.isWhole_whole _) scM0_2 (Memref.isWhole_whole _) hc0 hc1 x0 x1 x2
      = loopL x0 (k0_pay1 (F := F)) (k0_pay2 (F := F)) := by
  unfold sout0_A_1 kernelRun0_A
  dsimp only
  sl_unfold_words
  close_case
theorem sout_A_2 (hc0 : cond0_0 i) (hc1 : ¬cond0_1 i) :
    sout0_A_2 c i arg2 harg2 arg3 harg3 arg4 harg4 arg5 harg5 scM0_0 (Memref.isWhole_whole _) scM0_1 (Memref.isWhole_whole _) scM0_2 (Memref.isWhole_whole _) hc0 hc1 x0 x1 x2
      = loopS (BitVec.ofNat 32 (i 1).val) x0 x1 (k0_pay3 (F := F)) := by
  unfold sout0_A_2 kernelRun0_A
  dsimp only
  sl_unfold_words
  close_case
end Cases

end Cert.KernelIdeal.Pieces

end
-- ==== Proof.Spec.lean ====
/-
  The mathematics both programs compute, stated once over the extended reals, with no program in sight.

  A row of logits is a function `x : Fin 128256 → EReal`; its label is a 32-bit word `b`, its reference
  log-probability an extended real `r`. Both programs clip the label (signed) into [0, 128255], take the row's
  log-softmax at the clipped column, `x[idx] − max x − log Σ exp (x − max x)`, and form the token's loss times its
  importance ratio; the result is the sum of those products over the 2048 rows divided by the number of rows whose
  label is not the ignore word −100.
-/
import Idealize.ShloMosaic.PureOps.Ideal
import Idealize.ShloMosaic.PureOps.Ideal.Laws
import Idealize.ShloMosaic.Lib.ValueIdx

noncomputable section

open scoped BigOperators

namespace Cert.Xent

open Idealize.ShloMosaic

/-- The ignore word, −100 as a 32-bit pattern. -/
abbrev ignoreW : BitVec 32 := 4294967196#32

/-- The label clipped, signed, into the valid columns [0, 128255]. -/
def clipw (b : BitVec 32) : BitVec 32 := IntOp.minsi 128255#32 (IntOp.maxsi 0#32 b)

/-- The clipped label is a column. -/
theorem clipw_lt (b : BitVec 32) : (clipw b).toNat < 128256 := by
  unfold clipw IntOp.minsi IntOp.maxsi
  split <;> split <;> simp_all [BitVec.slt, BitVec.toInt] <;> omega

/-- A row's maximum: the fold of `max` from −∞ over the columns. -/
def rowMax (x : Fin 128256 → EReal) : EReal := (Finset.univ : Finset (Fin 128256)).fold max ⊥ x

/-- A row's sum of exponentials about its maximum. -/
def rowSum (x : Fin 128256 → EReal) : EReal := ∑ j : Fin 128256, Ideal.exp (x j - rowMax x)

/-- The row's entry at the clipped label. -/
def rowSel (x : Fin 128256 → EReal) (b : BitVec 32) : EReal := x ⟨(clipw b).toNat, clipw_lt b⟩

/-- The log-softmax of the row at the clipped label. -/
def logp (x : Fin 128256 → EReal) (b : BitVec 32) : EReal := rowSel x b - rowMax x - Ideal.log (rowSum x)

/-- A token's contribution from its selected log-probability `lp`: the loss (zero at an ignored label, else `0 − lp`)
    times the importance ratio (one at an ignored label, else `exp (lp − r)`) clipped below at zero. The float literals
    are kept as the words the programs print. -/
def contrib (lp : EReal) (b : BitVec 32) (r : EReal) : EReal :=
  Scalar.select (IntOp.cmpi .eq b ignoreW) (Ideal.ofBits .f32 0x00000000#32) (Ideal.ofBits .f32 0x00000000#32 - lp)
    * max (Scalar.select (IntOp.cmpi .eq b ignoreW) (Ideal.ofBits .f32 0x3F800000#32) (Ideal.exp (lp - r)))
        (Ideal.ofBits .f32 0x00000000#32)

/-- The number of rows whose label is not the ignore word, as the sum of the one-bit tests read as floats. -/
def count (lab : Fin 2048 → BitVec 32) : EReal :=
  ∑ t : Fin 2048, (FloatOps.uitofp (F := Ideal) .f32 (IntOp.cmpi .ne (lab t) ignoreW) : EReal)

/-- The whole result: the summed contributions over the count. -/
def total (x : Fin 2048 → Fin 128256 → EReal) (lab : Fin 2048 → BitVec 32) (ref : Fin 2048 → EReal) : EReal :=
  Ideal.div (∑ t : Fin 2048, contrib (logp (x t) (lab t)) (lab t) (ref t)) (count lab)

end Cert.Xent

end
-- ==== Proof.Recur.lean ====
/-
  The streaming form of a row's log-softmax pieces: the row is cut into six chunks of 21376 columns, and a triple
  (running maximum, running sum of exponentials about it, running selected entry) is updated chunk by chunk.
  The update of the sum rescales what was summed so far by `exp (m − m')` when the maximum moves from `m` to `m'`.
  Stated over the extended reals with the float literals kept as the printed words.
-/
import proofs.«414979_j79559974191144_3_alg».proof.Proof.Spec

noncomputable section

open scoped BigOperators

namespace Cert.Xent

open Idealize.ShloMosaic

/-- Chunk `n` of a row: its 21376 columns from column `21376 n`. -/
def chunkOf (x : Fin 128256 → EReal) (n : Fin 6) : Fin 21376 → EReal :=
  fun j => x ⟨21376 * n.val + j.val, by have := n.isLt; have := j.isLt; omega⟩

/-- The new running maximum: the old one against the chunk's maximum (a fold of `max` from the bf16 −∞ word). -/
def stepM (c : Fin 21376 → EReal) (m : EReal) : EReal :=
  max m ((Finset.univ : Finset (Fin 21376)).fold max (Ideal.ofBits .bf16 0xFF80#16) c)

/-- The new running sum: the old one rescaled by `exp (m − m')` (by zero if the new maximum `m'` is infinite), plus
    the chunk's exponentials about `m'`. -/
def stepL (c : Fin 21376 → EReal) (m l : EReal) : EReal :=
  Scalar.select (Ideal.cmp .oeq (max (stepM c m) (-(stepM c m))) (Ideal.ofBits .f32 0x7F800000#32))
      (Ideal.ofBits .f32 0x00000000#32) (Ideal.exp (m - stepM c m)) * l
    + ∑ j : Fin 21376, Ideal.exp (c j - stepM c m)

/-- The new running selected entry: the old one plus the chunk's entry at the lane whose column word
    (`base` plus the lane) is the clipped label, if there is one. -/
def stepS (c : Fin 21376 → EReal) (base b : BitVec 32) (s : EReal) : EReal :=
  s + ∑ j : Fin 21376, Scalar.select (IntOp.cmpi .eq (IntOp.addi base (BitVec.ofNat 32 j.val)) (clipw b)) (c j)
        (Ideal.ofBits .f32 0x00000000#32)

/-- The triple after the first `n` chunks of the row, from (−∞, 0, 0). -/
def st (x : Fin 128256 → EReal) (b : BitVec 32) : (n : Nat) → EReal × EReal × EReal
  | 0 => (Ideal.ofBits .f32 0xFF800000#32, Ideal.ofBits .f32 0x00000000#32, Ideal.ofBits .f32 0x00000000#32)
  | n + 1 =>
    if h : n < 6 then
      (stepM (chunkOf x ⟨n, h⟩) (st x b n).1,
       stepL (chunkOf x ⟨n, h⟩) (st x b n).1 (st x b n).2.1,
       stepS (chunkOf x ⟨n, h⟩) (BitVec.ofNat 32 (21376 * n)) b (st x b n).2.2)
    else st x b n

theorem st_succ (x : Fin 128256 → EReal) (b : BitVec 32) (n : Fin 6) :
    st x b (n.val + 1) = (stepM (chunkOf x n) (st x b n.val).1,
       stepL (chunkOf x n) (st x b n.val).1 (st x b n.val).2.1,
       stepS (chunkOf x n) (BitVec.ofNat 32 (21376 * n.val)) b (st x b n.val).2.2) := by
  rw [st]; exact dif_pos n.isLt

/-- The literal words: the two −∞ patterns, the +∞ pattern and zero. -/
theorem negInf_bf16 : Ideal.ofBits .bf16 0xFF80#16 = ⊥ := by simp [Ideal.ofBits, Ideal.ieee]
theorem negInf_f32 : Ideal.ofBits .f32 0xFF800000#32 = ⊥ := by simp [Ideal.ofBits, Ideal.ieee]
theorem posInf_f32 : Ideal.ofBits .f32 0x7F800000#32 = ⊤ := by simp [Ideal.ofBits, Ideal.ieee]

end Cert.Xent

end
-- ==== Proof.PayIdeal.lean ====
/-
  The kernel body's pure terms read at one row, over the extended reals.

  A loop trip loads a chunk of 64 rows by 21376 columns and holds, per row, a running maximum, a running sum of
  exponentials about it and a running selected entry. Read at row p, the three updates the body stores are the
  streaming steps: the new maximum is the old one against the chunk row's maximum; the new sum is the old one rescaled
  plus the row's exponentials about the new maximum; the new selected entry is the old one plus the row's entry at the
  lane whose column word equals the clipped label. The closing term is the token's contribution from the three, and
  the three opening terms are the constants −∞, 0 and 0.

  The lemmas first read the layout steps at an index: a 64-vector viewed as a 64 × 1 block, a 64 × 1 block spread over
  the lanes, a lane reduction of a 64 × 21376 block as a sum or a fold of max over the lanes, and the lane counter.
-/
import proofs.«414979_j79559974191144_3_alg».proof.Proof.Gen.KernelIdeal.Skeleton
import proofs.«414979_j79559974191144_3_alg».proof.Proof.Recur
import Idealize.ShloMosaic.Lib.ValueIdx
import Idealize.ShloMosaic.Lib.Pipeline.Value
import Idealize.ShloMosaic.Lib.ValueLayout
import Idealize.ShloMosaic.PureOps.Ideal.Laws

set_option synthInstance.maxSize 4096

noncomputable section

open scoped BigOperators

namespace Cert.KernelIdeal.PayIdeal

open Cert.KernelIdeal Cert.KernelIdeal.Gen Cert.Xent Idealize.ShloMosaic Idealize.ShloMosaic.ValueIdx Idealize.SL.Sem

variable {α : Type}

/-- A column of 64 entries viewed as a 64 × 1 block reads, at (p, 0), the entry p. -/
theorem cast_col (v : S64.Idx → α) (h : S64.ShapeCasts S64x1) (p : Fin 64) :
    shapeCast S64x1 v h (ix2 p (0 : Fin 1)) = v (ix1 p) :=
  shapeCast_apply v h (ix2 p (0 : Fin 1)) (ix1 p) (by
    rw [Shape.rowMajor_val_two, Shape.rowMajor_val_one]
    show p.val = p.val * 1 + 0
    omega)

/-- A 64 × 1 block spread over 21376 lanes reads, at (p, j), its entry (p, 0). -/
theorem bcast_col (x : S64x1.Idx → α) (h : S64x1.Broadcasts S64x21376) (p : Fin 64) (j : Fin 21376) :
    broadcastTo S64x21376 x h (ix2 p j) = x (ix2 p (0 : Fin 1)) :=
  broadcastTo_apply x h (ix2 p j) (ix2 p (0 : Fin 1)) (fun a =>
    match a with
    | ⟨0, _⟩ => rfl
    | ⟨1, _⟩ => rfl)

/-- Row p with lane k put back is the index (p, k). -/
theorem lift_eq (h : S64x21376.Reduces [1] S64) (p : Fin 64) (k : Fin 21376) :
    h.lift (ix1 p) k = ix2 p k := by
  funext a
  match a with
  | ⟨0, _⟩ => rfl
  | ⟨1, _⟩ => rfl

/-- The lane sum of a 64 × 21376 block at row p. -/
theorem sum_row (src : FVec Ideal S64x21376 .f32) (h : S64x21376.Reduces [1] S64)
    (hφ : FKind.Formats .f32) (hacc : (0x00000000#32 : BitVec 32) = FKind.add.neutral .f32 hφ) (p : Fin 64) :
    multiReduction .add [1] S64 src 0x00000000#32 h hφ hacc (ix1 p) = ∑ k : Fin 21376, src (ix2 p k) :=
  (Ideal.multiReduction_add_single src 0x00000000#32 h hφ hacc (ix1 p)).trans
    (Finset.sum_congr rfl fun k _ => congrArg src (lift_eq h p k))

/-- The lane maximum of a 64 × 21376 block at row p. -/
theorem max_row (src : FVec Ideal S64x21376 .bf16) (h : S64x21376.Reduces [1] S64)
    (hφ : FKind.Formats .bf16) (hacc : (0xFF80#16 : BitVec 16) = FKind.maximumf.neutral .bf16 hφ) (p : Fin 64) :
    multiReduction .maximumf [1] S64 src 0xFF80#16 h hφ hacc (ix1 p)
      = (Finset.univ : Finset (Fin 21376)).fold max (Ideal.ofBits .bf16 0xFF80#16) (fun k => src (ix2 p k)) :=
  (Ideal.multiReduction_maximumf_single src 0xFF80#16 h hφ hacc (ix1 p)).trans
    (congrArg (fun f => (Finset.univ : Finset (Fin 21376)).fold max (Ideal.ofBits .bf16 0xFF80#16) f)
      (funext fun k => congrArg src (lift_eq h p k)))

/-- The lane counter at (p, j) is the word j. -/
theorem iota_lane (h : S64x21376.Iotas .tc 32 [1]) (p : Fin 64) (j : Fin 21376) :
    iota .tc S64x21376 32 [1] h (ix2 p j) = BitVec.ofNat 32 j.val :=
  iota_single_apply .tc S64x21376 32 1 h (ix2 p j)

theorem pay8_eq (c : Vec Ideal S64x21376 .bf16) : k0_pay8 (F := Ideal) c = c := shapeCast_self c _

theorem pay9_at (p : Fin 64) (c : Vec Ideal S64x21376 .bf16) (m : Vec Ideal S64x1 .f32) :
    k0_pay9 (F := Ideal) c m (ix2 p (0 : Fin 1)) = stepM (fun j : Fin 21376 => c (ix2 p j)) (m (ix2 p 0)) := by
  unfold k0_pay9
  rw [pay8_eq]
  refine (maximumf_apply _ _ _).trans ?_
  refine congrArg (max (m (ix2 p 0))) ?_
  refine (extf_apply (ψ := .f32) _ bitsLt_bf16_f32 _).trans ?_
  refine (cast_col _ _ p).trans ?_
  refine (max_row _ _ _ _ p).trans ?_
  rfl

theorem pay12_at (p : Fin 64) (c : Vec Ideal S64x21376 .bf16) (m : Vec Ideal S64x1 .f32) :
    k0_pay12 (F := Ideal) c m (ix2 p (0 : Fin 1)) = stepM (fun j : Fin 21376 => c (ix2 p j)) (m (ix2 p 0)) := by
  unfold k0_pay12
  rw [shapeCast_self]
  exact pay9_at p c m

theorem pay10_at (c : Vec Ideal S64x21376 .bf16) (i : S64x21376.Idx) : k0_pay10 (F := Ideal) c i = c i := by
  unfold k0_pay10
  rw [pay8_eq]
  rfl

theorem pay11_at (p : Fin 64) (c : Vec Ideal S64x21376 .bf16) (m l : Vec Ideal S64x1 .f32) :
    k0_pay11 (F := Ideal) c m l (ix2 p (0 : Fin 1))
      = stepL (fun j : Fin 21376 => c (ix2 p j)) (m (ix2 p 0)) (l (ix2 p 0)) := by
  have hM := pay9_at p c m
  unfold k0_pay11
  rw [shapeCast_self]
  generalize k0_pay9 (F := Ideal) c m = M9 at hM ⊢
  unfold stepL
  rw [← hM]
  refine (addf_apply _ _ _).trans ?_
  refine congrArg₂ (· + ·) ?_ ?_
  · rfl
  · refine (cast_col _ _ p).trans ?_
    refine (sum_row _ _ _ _ p).trans ?_
    refine Finset.sum_congr rfl fun j _ => ?_
    show Ideal.exp (k0_pay10 (F := Ideal) c (ix2 p j) - broadcastTo S64x21376 M9 broadcasts_S64x1_S64x21376 (ix2 p j)) = _
    rw [pay10_at, bcast_col]

/-- The column word of a trip's first lane: the grid step's 42752 columns plus the trip's 21376. -/
def colBase (arg1 : BitVec 32) (k : Fin k0_t1_loop.trips) : BitVec 32 :=
  Scalar.addi (Scalar.muli arg1 42752#32)
    (Scalar.muli (Scalar.addi 0#32 (Scalar.muli (Scf.iv 0#32 1#32 k) 1#32)) 21376#32)

theorem colBase_eq (v : Fin 3) (k : Fin k0_t1_loop.trips) :
    colBase (BitVec.ofNat 32 v.val) k = BitVec.ofNat 32 (21376 * (2 * v.val + k.val)) := by
  revert v k
  decide

theorem pay13_at (arg1 : BitVec 32) (k : Fin k0_t1_loop.trips) (p : Fin 64) (j : Fin 21376) :
    k0_pay13 arg1 0#32 1#32 k (ix2 p j) = IntOp.addi (colBase arg1 k) (BitVec.ofNat 32 j.val) := by
  unfold k0_pay13
  show IntOp.addi (colBase arg1 k) (iota .tc S64x21376 32 [1] iota_S64x21376_d1_w32 (ix2 p j)) = _
  rw [iota_lane]

theorem pay5_at (p : Fin 64) (v3 : Vec Ideal S64x1 .i32) :
    k0_pay5 (F := Ideal) v3 (ix2 p (0 : Fin 1)) = clipw (v3 (ix2 p 0)) := by
  unfold k0_pay5 k0_pay4
  rw [shapeCast_self]
  rfl

theorem pay14_at (v8 : IVec S64x1 32) (p : Fin 64) (j : Fin 21376) :
    k0_pay14 v8 (ix2 p j) = v8 (ix2 p (0 : Fin 1)) := by
  unfold k0_pay14
  exact bcast_col v8 _ p j

theorem pay6_at (p : Fin 64) (c : Vec Ideal S64x21376 .bf16) (s : Vec Ideal S64x1 .f32) (v3 : Vec Ideal S64x1 .i32)
    (arg1 : BitVec 32) (k : Fin k0_t1_loop.trips) :
    k0_pay6 (F := Ideal) (k0_pay10 c) (k0_pay13 arg1 0#32 1#32 k) (k0_pay14 (k0_pay5 v3)) s (ix2 p (0 : Fin 1))
      = stepS (fun j : Fin 21376 => c (ix2 p j)) (colBase arg1 k) (v3 (ix2 p 0)) (s (ix2 p 0)) := by
  unfold k0_pay6
  rw [shapeCast_self]
  refine (addf_apply _ _ _).trans ?_
  unfold stepS
  refine congrArg (s (ix2 p 0) + ·) ?_
  refine (cast_col _ _ p).trans ?_
  refine (sum_row _ _ _ _ p).trans ?_
  refine Finset.sum_congr rfl fun j _ => ?_
  show Scalar.select (IntOp.cmpi .eq (k0_pay13 arg1 0#32 1#32 k (ix2 p j)) (k0_pay14 (k0_pay5 (F := Ideal) v3) (ix2 p j)))
      (k0_pay10 (F := Ideal) c (ix2 p j)) (Ideal.ofBits .f32 0x00000000#32) = _
  rw [pay13_at, pay14_at, pay5_at, pay10_at]

theorem pay7_at (p : Fin 64) (v3 : Vec Ideal S64x1 .i32) (s m l r : Vec Ideal S64x1 .f32) :
    k0_pay7 (F := Ideal) v3 s m l r (ix2 p (0 : Fin 1))
      = contrib (s (ix2 p 0) - m (ix2 p 0) - Ideal.log (l (ix2 p 0))) (v3 (ix2 p 0)) (r (ix2 p 0)) := by
  unfold k0_pay7 k0_pay4
  simp only [shapeCast_self]
  rfl

theorem pay1_at (p : Fin 64) : k0_pay1 (F := Ideal) (ix2 p (0 : Fin 1)) = Ideal.ofBits .f32 0xFF800000#32 := by
  unfold k0_pay1
  rw [shapeCast_self]
  rfl

theorem pay2_at (p : Fin 64) : k0_pay2 (F := Ideal) (ix2 p (0 : Fin 1)) = Ideal.ofBits .f32 0x00000000#32 := by
  unfold k0_pay2
  rw [shapeCast_self]
  rfl

theorem pay3_at (p : Fin 64) : k0_pay3 (F := Ideal) (ix2 p (0 : Fin 1)) = Ideal.ofBits .f32 0x00000000#32 := by
  unfold k0_pay3
  rw [shapeCast_self]
  rfl

end Cert.KernelIdeal.PayIdeal

end
-- ==== Proof.Stream.lean ====
/-
  The streaming triple after all six chunks of a row of real entries is the row's maximum, its sum of exponentials
  about the maximum, and its entry at the clipped label.

  The invariant after n chunks, with P n the columns below 21376 n: the running maximum is the supremum of the
  entries over P n (−∞ for n = 0, a real from n = 1 on), the running sum is Σ_{j ∈ P n} exp (x j − that supremum),
  and the running selected entry is Σ_{j ∈ P n} [j = clipped label] x j. The step from n to n + 1 adds the columns
  Q n of chunk n; for reals m, m' one has exp (m − m') · Σ exp (x j − m) = Σ exp (x j − m').
-/
import proofs.«414979_j79559974191144_3_alg».proof.Proof.Recur
import Mathlib.Data.Finset.Lattice.Fold
import Mathlib.Data.EReal.Operations
import Mathlib.Algebra.BigOperators.Group.Finset.Basic
import Mathlib.Analysis.SpecialFunctions.Exp

noncomputable section

open scoped BigOperators

namespace Cert.Xent.Stream

open Idealize.ShloMosaic

/-! ### Words and one-bit tests -/

/-- The zero word of f32 is zero. -/
theorem zero_f32 : Ideal.ofBits .f32 0x00000000#32 = 0 := by simp [Ideal.ofBits, Ideal.ieee]

/-- A one-bit word made from a Boolean is one exactly when the Boolean is true. -/
theorem ofBool_eq_one (c : Bool) : (BitVec.ofBool c = 1) ↔ c = true := by cases c <;> decide

/-- The column-word test: with no overflow, the word of column 21376 n + j equals w iff the column is w's value. -/
theorem sel_word (n j : ℕ) (hj : 21376 * n + j < 128256) (w : BitVec 32) (a z : EReal) :
    Scalar.select (IntOp.cmpi .eq (IntOp.addi (BitVec.ofNat 32 (21376 * n)) (BitVec.ofNat 32 j)) w) a z
      = if 21376 * n + j = w.toNat then a else z := by
  have hw : BitVec.ofNat 32 (21376 * n) + BitVec.ofNat 32 j = w ↔ 21376 * n + j = w.toNat := by
    rw [← BitVec.toNat_inj]
    simp only [BitVec.toNat_add, BitVec.toNat_ofNat]
    omega
  unfold Scalar.select IntOp.cmpi IntOp.addi
  simp only [ofBool_eq_one, beq_iff_eq, hw]

/-- The absolute value of a real is not +∞, so the test against +∞ answers zero. -/
theorem cmp_abs_real (r : ℝ) : Ideal.cmp .oeq (max (r : EReal) (-(r : EReal))) ⊤ = 0 := by
  have h : max (r : EReal) (-(r : EReal)) ≠ ⊤ := by
    refine (max_lt (EReal.coe_lt_top r) ?_).ne
    rw [← EReal.coe_neg]; exact EReal.coe_lt_top _
  simp [Ideal.cmp, h]

/-- A select on the zero bit takes its second branch. -/
theorem select_zero (a z : EReal) : Scalar.select (0 : BitVec 1) a z = z := by
  unfold Scalar.select; exact if_neg (by decide)

/-! ### Finite sums and suprema of reals in the extended reals -/

/-- The fold of max from −∞ is the supremum. -/
theorem fold_max_eq_sup {ι : Type} (s : Finset ι) (f : ι → EReal) : s.fold max ⊥ f = s.sup f := rfl

/-- The coercion of a finite real sum. -/
theorem coe_sum {ι : Type} (s : Finset ι) (f : ι → ℝ) :
    ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- The supremum of reals over a nonempty finite set is a real. -/
theorem sup_real {ι : Type} (y : ι → ℝ) (s : Finset ι) (hs : s.Nonempty) :
    ∃ r : ℝ, s.sup (fun j => (y j : EReal)) = (r : EReal) := by
  obtain ⟨i, _, hi⟩ := Finset.exists_mem_eq_sup s hs (fun j => (y j : EReal))
  exact ⟨y i, hi⟩

/-- Moving the centre of a sum of exponentials from m to m'. -/
theorem rescale {ι : Type} (y : ι → ℝ) (s : Finset ι) (m m' : ℝ) :
    Ideal.exp ((m : EReal) - (m' : EReal)) * ∑ j ∈ s, Ideal.exp ((y j : EReal) - (m : EReal))
      = ∑ j ∈ s, Ideal.exp ((y j : EReal) - (m' : EReal)) := by
  simp only [← EReal.coe_sub, Ideal.exp_coe, coe_sum, ← EReal.coe_mul]
  congr 1
  rw [Finset.mul_sum]
  refine Finset.sum_congr rfl (fun j _ => ?_)
  rw [← Real.exp_add]; congr 1; ring

/-! ### The columns below a chunk boundary, and the columns of a chunk -/

/-- Lane j of chunk n as a column of the row. -/
def emb (n : Fin 6) : Fin 21376 ↪ Fin 128256 :=
  ⟨fun j => ⟨21376 * n.val + j.val, by have := n.isLt; have := j.isLt; omega⟩,
   fun i j h => by have := Fin.mk.inj h; exact Fin.ext (by omega)⟩

theorem emb_val (n : Fin 6) (j : Fin 21376) : (emb n j).val = 21376 * n.val + j.val := rfl

/-- The columns below 21376 n. -/
def P (n : ℕ) : Finset (Fin 128256) := Finset.univ.filter (fun j => j.val < 21376 * n)

/-- The columns of chunk n. -/
def Q (n : Fin 6) : Finset (Fin 128256) := Finset.univ.map (emb n)

theorem P_zero : P 0 = ∅ := by
  ext j; simp [P]

theorem P_six : P 6 = Finset.univ := by
  ext j; have := j.isLt; simp [P]

theorem mem_Q (n : Fin 6) (j : Fin 128256) : j ∈ Q n ↔ 21376 * n.val ≤ j.val ∧ j.val < 21376 * (n.val + 1) := by
  simp only [Q, Finset.mem_map, Finset.mem_univ, true_and]
  constructor
  · rintro ⟨i, rfl⟩
    have := i.isLt
    rw [emb_val]
    omega
  · rintro ⟨h1, h2⟩
    refine ⟨⟨j.val - 21376 * n.val, by omega⟩, Fin.ext ?_⟩
    rw [emb_val]
    show 21376 * n.val + (j.val - 21376 * n.val) = j.val
    omega

theorem P_succ (n : Fin 6) : P (n.val + 1) = P n.val ∪ Q n := by
  ext j
  rw [Finset.mem_union, mem_Q]
  simp only [P, Finset.mem_filter, Finset.mem_univ, true_and]
  omega

theorem P_disj (n : Fin 6) : Disjoint (P n.val) (Q n) := by
  rw [Finset.disjoint_left]
  intro j hj hq
  rw [mem_Q] at hq
  simp only [P, Finset.mem_filter, Finset.mem_univ, true_and] at hj
  omega

theorem P_succ_nonempty (n : Fin 6) : (P (n.val + 1)).Nonempty :=
  ⟨⟨0, by omega⟩, by simp [P]⟩

/-- A sum over the columns of chunk n is the sum over its lanes. -/
theorem sum_Q (n : Fin 6) (g : Fin 128256 → EReal) : ∑ j ∈ Q n, g j = ∑ j : Fin 21376, g (emb n j) := by
  rw [Q, Finset.sum_map]

/-- The supremum over the columns of chunk n is the supremum of the chunk. -/
theorem sup_Q (x : Fin 128256 → EReal) (n : Fin 6) : (Q n).sup x = Finset.univ.sup (chunkOf x n) := by
  rw [Q, Finset.sup_map]; rfl

/-! ### The three steps -/

theorem stepM_sup (x : Fin 128256 → EReal) (n : Fin 6) :
    stepM (chunkOf x n) ((P n.val).sup x) = (P (n.val + 1)).sup x := by
  rw [stepM, negInf_bf16, fold_max_eq_sup, ← sup_Q, P_succ, Finset.sup_union]

theorem stepS_sum (x : Fin 128256 → EReal) (b : BitVec 32) (n : Fin 6) :
    stepS (chunkOf x n) (BitVec.ofNat 32 (21376 * n.val)) b
        (∑ j ∈ P n.val, if j.val = (clipw b).toNat then x j else 0)
      = ∑ j ∈ P (n.val + 1), if j.val = (clipw b).toNat then x j else 0 := by
  have key : (∑ j : Fin 21376, Scalar.select
        (IntOp.cmpi .eq (IntOp.addi (BitVec.ofNat 32 (21376 * n.val)) (BitVec.ofNat 32 j.val)) (clipw b))
        (chunkOf x n j) (Ideal.ofBits .f32 0x00000000#32))
      = ∑ j : Fin 21376, (fun j : Fin 128256 => if j.val = (clipw b).toNat then x j else 0) (emb n j) := by
    refine Finset.sum_congr rfl (fun j _ => ?_)
    have := n.isLt; have := j.isLt
    rw [sel_word n.val j.val (by omega), zero_f32]
    rfl
  rw [stepS, key, P_succ, Finset.sum_union (P_disj n), sum_Q]

theorem stepL_sum (x : Fin 128256 → EReal) (hx : ∀ j, ∃ r : ℝ, x j = (r : EReal)) (n : Fin 6) :
    stepL (chunkOf x n) ((P n.val).sup x) (∑ j ∈ P n.val, Ideal.exp (x j - (P n.val).sup x))
      = ∑ j ∈ P (n.val + 1), Ideal.exp (x j - (P (n.val + 1)).sup x) := by
  choose y hy using hx
  obtain rfl : x = fun j => (y j : EReal) := funext hy
  obtain ⟨r', hr'⟩ := sup_real y (P (n.val + 1)) (P_succ_nonempty n)
  have key : Ideal.exp ((P n.val).sup (fun j => (y j : EReal)) - (r' : EReal))
        * ∑ j ∈ P n.val, Ideal.exp ((y j : EReal) - (P n.val).sup (fun j => (y j : EReal)))
      = ∑ j ∈ P n.val, Ideal.exp ((y j : EReal) - (r' : EReal)) := by
    rcases Nat.eq_zero_or_pos n.val with h0 | hpos
    · rw [h0, P_zero, Finset.sum_empty, Finset.sum_empty, mul_zero]
    · have hne : (P n.val).Nonempty := ⟨⟨0, by omega⟩, by simp only [P, Finset.mem_filter, Finset.mem_univ, true_and]; omega⟩
      obtain ⟨r, hr⟩ := sup_real y (P n.val) hne
      rw [hr]
      exact rescale y (P n.val) r r'
  rw [stepL, stepM_sup, hr', posInf_f32, cmp_abs_real, select_zero, key, P_succ, Finset.sum_union (P_disj n), sum_Q]
  rfl

/-! ### The invariant and the result -/

theorem st_inv (x : Fin 128256 → EReal) (hx : ∀ j, ∃ r : ℝ, x j = (r : EReal)) (b : BitVec 32) :
    ∀ n : ℕ, n ≤ 6 → st x b n =
      ((P n).sup x, ∑ j ∈ P n, Ideal.exp (x j - (P n).sup x),
        ∑ j ∈ P n, if j.val = (clipw b).toNat then x j else 0)
  | 0, _ => by
    rw [st, P_zero, negInf_f32, zero_f32]
    simp
  | n + 1, h => by
    have ih := st_inv x hx b n (by omega)
    have hs := st_succ x b ⟨n, by omega⟩
    simp only [] at hs
    rw [hs, ih]
    simp only []
    rw [stepM_sup x ⟨n, by omega⟩, stepL_sum x hx ⟨n, by omega⟩, stepS_sum x b ⟨n, by omega⟩]

end Cert.Xent.Stream

namespace Cert.Xent

open Idealize.ShloMosaic Cert.Xent.Stream

/-- After all six chunks the triple is the row's maximum, its sum of exponentials about it, and its selected entry. -/
theorem st_six (x : Fin 128256 → EReal) (hx : ∀ j, ∃ r : ℝ, x j = (r : EReal)) (b : BitVec 32) :
    st x b 6 = (rowMax x, rowSum x, rowSel x b) := by
  have hS : (∑ j : Fin 128256, if j.val = (clipw b).toNat then x j else 0) = rowSel x b := by
    rw [Finset.sum_eq_single (⟨(clipw b).toNat, clipw_lt b⟩ : Fin 128256)]
    · rw [if_pos rfl]; rfl
    · intro j _ hj
      rw [if_neg]
      intro e; exact hj (Fin.ext e)
    · intro h; exact absurd (Finset.mem_univ _) h
  rw [st_inv x hx b 6 (le_refl 6), P_six, hS, rowSum, rowMax, fold_max_eq_sup]

end Cert.Xent

end
-- ==== Proof.KValue.lean ====
/-
  What the idealized kernel computes, over the extended reals.

  The kernel walks a 32 × 3 grid: 32 blocks of 64 rows, each visited at 3 consecutive grid steps that bring the three
  42752-column thirds of the rows; inside a step a two-trip loop takes the third in two chunks of 21376 columns. Three
  64 × 1 scratch columns carry, per row, the streaming triple (running maximum, running sum of exponentials about it,
  running selected entry). A row block's first step resets them to (−∞, 0, 0); its last step forms, from the triple
  after all six chunks, each row's loss times its importance ratio and stores the block of the output column.

  Here: each array the region stages is a reshape of an argument; a step's block rows are columns of the argument
  rows; one step takes the triple after 2v chunks to the triple after 2v + 2 (the body's payloads read at a row are
  the streaming steps); by induction on the grid point the scratch after step t holds the triple after 2 (t mod 3) + 2
  chunks; at a last step that is the row's maximum, sum and selected entry (the logits being real), so the stored block
  is the rows' contributions; the stored blocks cover the output column; and the host lines after the region sum the
  column, count the rows not ignored and divide.
-/
import proofs.«414979_j79559974191144_3_alg».proof.Proof.Pieces
import proofs.«414979_j79559974191144_3_alg».proof.Proof.PayIdeal
import proofs.«414979_j79559974191144_3_alg».proof.Proof.Stream
import Idealize.ShloMosaic.Lib.Pipeline.Value
import Idealize.ShloMosaic.Lib.StableHlo.Run
import Idealize.ShloMosaic.Lib.Tactic

set_option maxRecDepth 16384

noncomputable section

open scoped BigOperators

namespace Cert.KernelIdeal.KValue

open Cert.KernelIdeal Cert.KernelIdeal.Gen Cert.KernelIdeal.Pieces Cert.KernelIdeal.PayIdeal Cert.Xent
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The three argument arrays on core `c`, as the programs' literal array types. -/
abbrev argX (c : Dev nD) : (⟨S1x2048x128256, .bf16⟩ : BufTy).Contents (Elt Ideal) := m ((c : Thread nD τ).loc main_arg0)
abbrev argR (c : Dev nD) : (⟨S1x2048, .f32⟩ : BufTy).Contents (Elt Ideal) := m ((c : Thread nD τ).loc main_arg1)
abbrev argL (c : Dev nD) : (⟨S1x2048, .i32⟩ : BufTy).Contents (Elt Ideal) := m ((c : Thread nD τ).loc main_arg2)

/-- Row `t` of the logits, its label and its reference log-probability. -/
def xrow (c : Dev nD) (t : Fin 2048) : Fin 128256 → EReal := fun j => argX m c (ix3 (0 : Fin 1) t j)
def lab (c : Dev nD) (t : Fin 2048) : BitVec 32 := argL m c (ix2 (0 : Fin 1) t)
def rf (c : Dev nD) (t : Fin 2048) : EReal := argR m c (ix2 (0 : Fin 1) t)

/-- The three staged arrays as the region finds them: the host's reshapes of the arguments. -/
theorem V_v0 (c : Dev nD) : (V m c main_v0 : S2048x128256.Idx → EReal) = shapeCast S2048x128256 (argX m c) Facts₀.shapeCasts_S1x2048x128256_S2048x128256 := by
  show StableHlo.after hostOps0 (fun b => m (c, b)) (Proc.devRef .tc main_v0) = _
  after_results
  rfl
theorem V_v1 (c : Dev nD) : (V m c main_v1 : S2048x1.Idx → BitVec 32) = shapeCast S2048x1 (argL m c) Facts₀.shapeCasts_S1x2048_S2048x1 := by
  show StableHlo.after hostOps0 (fun b => m (c, b)) (Proc.devRef .tc main_v1) = _
  after_results
  rfl
theorem V_v2 (c : Dev nD) : (V m c main_v2 : S2048x1.Idx → EReal) = shapeCast S2048x1 (argR m c) Facts₀.shapeCasts_S1x2048_S2048x1 := by
  show StableHlo.after hostOps0 (fun b => m (c, b)) (Proc.devRef .tc main_v2) = _
  after_results
  rfl

/-- The reshaped arrays at an index. -/
theorem V_v0_at (c : Dev nD) (t : Fin 2048) (j : Fin 128256) : (V m c main_v0 : S2048x128256.Idx → EReal) (ix2 t j) = xrow m c t j := by
  rw [V_v0]
  exact shapeCast_apply _ _ (ix2 t j) (ix3 (0 : Fin 1) t j) (by
    rw [Shape.rowMajor_val_two, Shape.rowMajor_val_three]
    show ((0 : Nat) * 2048 + t.val) * 128256 + j.val = t.val * 128256 + j.val
    omega)
theorem V_v1_at (c : Dev nD) (t : Fin 2048) : (V m c main_v1 : S2048x1.Idx → BitVec 32) (ix2 t (0 : Fin 1)) = lab m c t := by
  rw [V_v1]
  exact shapeCast_apply _ _ (ix2 t (0 : Fin 1)) (ix2 (0 : Fin 1) t) (by
    rw [Shape.rowMajor_val_two, Shape.rowMajor_val_two]
    show (0 : Nat) * 2048 + t.val = t.val * 1 + 0
    omega)
theorem V_v2_at (c : Dev nD) (t : Fin 2048) : (V m c main_v2 : S2048x1.Idx → EReal) (ix2 t (0 : Fin 1)) = rf m c t := by
  rw [V_v2]
  exact shapeCast_apply _ _ (ix2 t (0 : Fin 1)) (ix2 (0 : Fin 1) t) (by
    rw [Shape.rowMajor_val_two, Shape.rowMajor_val_two]
    show (0 : Nat) * 2048 + t.val = t.val * 1 + 0
    omega)

/-! ## A loop trip's chunk, and one grid step on a row -/

theorem off1_val : ∀ k : Fin k0_t1_loop.trips, k0_off1 k 0 = 0 ∧ k0_off1 k 1 = 21376 * k.val := by decide +kernel

/-- Trip `k` loads, of a block's row `p`, the lanes from `21376 k`. -/
theorem chunk_at (x0 : Vec Ideal S64x42752 .bf16) (k : Fin k0_t1_loop.trips) (p : Fin 64) (j : Fin 21376)
    (h : 21376 * k.val + j.val < 42752) :
    chunk x0 k (ix2 p j) = x0 (ix2 p ⟨21376 * k.val + j.val, h⟩) := by
  unfold chunk
  show x0 ((Rect.unit (s := S64x42752) (k0_off1 k) S64x21376.size (k0_off1_inb k)).idx (ix2 p j)) = _
  congr 1
  funext a
  apply Fin.ext
  have ho := off1_val k
  match a with
  | ⟨0, _⟩ => show k0_off1 k 0 + 1 * p.val = p.val; rw [ho.1]; omega
  | ⟨1, _⟩ => show k0_off1 k 1 + 1 * j.val = 21376 * k.val + j.val; rw [ho.2]; omega

theorem t0_val : (t0 : Fin k0_t1_loop.trips).val = 0 := rfl
theorem t1_val : (t1 : Fin k0_t1_loop.trips).val = 1 := rfl

/-- If row `p` of a logits block holds columns `42752 v …` of a row `x`, the two trips' chunk rows are chunks `2v` and `2v+1` of `x`. -/
theorem chunk_row (x0 : Vec Ideal S64x42752 .bf16) (v : Fin 3) (p : Fin 64) (x : Fin 128256 → EReal)
    (hx : ∀ j : Fin 42752, x0 (ix2 p j) = x ⟨42752 * v.val + j.val, by have := v.isLt; have := j.isLt; omega⟩)
    (k : Fin k0_t1_loop.trips) (hk : 2 * v.val + k.val < 6) (hk2 : k.val < 2) :
    (fun j : Fin 21376 => chunk x0 k (ix2 p j)) = chunkOf x ⟨2 * v.val + k.val, hk⟩ := by
  funext j
  have hj := j.isLt
  rw [chunk_at x0 k p j (by omega), hx]
  unfold chunkOf
  congr 1
  apply Fin.ext
  show 42752 * v.val + (21376 * k.val + j.val) = 21376 * (2 * v.val + k.val) + j.val
  omega

/-- ONE GRID STEP ON A ROW: from the streaming triple after `2v` chunks of the row, the body's two trips over the
    block holding columns `42752 v …` leave the triple after `2v + 2` chunks. -/
theorem point_step (x0 : Vec Ideal S64x42752 .bf16) (x1 : Vec Ideal S64x1 .i32) (ms ls ss : Vec Ideal S64x1 .f32)
    (v : Fin 3) (p : Fin 64) (x : Fin 128256 → EReal) (b : BitVec 32)
    (hx : ∀ j : Fin 42752, x0 (ix2 p j) = x ⟨42752 * v.val + j.val, by have := v.isLt; have := j.isLt; omega⟩)
    (hb : x1 (ix2 p (0 : Fin 1)) = b)
    (hm : ms (ix2 p (0 : Fin 1)) = (st x b (2 * v.val)).1)
    (hl : ls (ix2 p (0 : Fin 1)) = (st x b (2 * v.val)).2.1)
    (hs : ss (ix2 p (0 : Fin 1)) = (st x b (2 * v.val)).2.2) :
    loopM x0 ms (ix2 p (0 : Fin 1)) = (st x b (2 * v.val + 2)).1
    ∧ loopL x0 ms ls (ix2 p (0 : Fin 1)) = (st x b (2 * v.val + 2)).2.1
    ∧ loopS (BitVec.ofNat 32 v.val) x0 x1 ss (ix2 p (0 : Fin 1)) = (st x b (2 * v.val + 2)).2.2 := by
  have hv := v.isLt
  have h0 : 2 * v.val + (t0 : Fin k0_t1_loop.trips).val < 6 := by rw [t0_val]; omega
  have h1 : 2 * v.val + (t1 : Fin k0_t1_loop.trips).val < 6 := by rw [t1_val]; omega
  have c0 := chunk_row x0 v p x hx t0 h0 (by rw [t0_val]; omega)
  have c1 := chunk_row x0 v p x hx t1 h1 (by rw [t1_val]; omega)
  have e1 : st x b (2 * v.val + 1) = _ := st_succ x b ⟨2 * v.val + (t0 : Fin k0_t1_loop.trips).val, h0⟩
  have e2 : st x b (2 * v.val + 2) = _ := st_succ x b ⟨2 * v.val + (t1 : Fin k0_t1_loop.trips).val, h1⟩
  have b0 := colBase_eq v t0
  have b1 := colBase_eq v t1
  -- the first trip
  have m1 : tripM x0 t0 ms (ix2 p (0 : Fin 1)) = (st x b (2 * v.val + 1)).1 := by
    rw [e1]; unfold tripM; rw [pay12_at, c0, hm]; rfl
  have l1 : tripL x0 t0 ms ls (ix2 p (0 : Fin 1)) = (st x b (2 * v.val + 1)).2.1 := by
    rw [e1]; unfold tripL; rw [pay11_at, c0, hm, hl]; rfl
  have s1 : tripS (BitVec.ofNat 32 v.val) x0 x1 t0 ss (ix2 p (0 : Fin 1)) = (st x b (2 * v.val + 1)).2.2 := by
    rw [e1]; unfold tripS; rw [pay6_at, c0, hs, hb, b0]; rfl
  refine ⟨?_, ?_, ?_⟩
  · rw [e2]; unfold loopM; unfold tripM; rw [pay12_at, c1]
    exact congrArg _ m1
  · rw [e2]; unfold loopL; unfold tripL; rw [pay11_at, c1]
    exact congrArg₂ _ m1 l1
  · rw [e2]; unfold loopS; unfold tripS; rw [pay6_at, c1, hb, b1]
    exact congrArg _ s1

/-! ## The blocks of a grid point -/

theorem idx0 : ∀ t : Fin cfg0.N, win0_0.index t 0 = t.val / 3 ∧ win0_0.index t 1 = t.val % 3 :=
  (by decide +kernel : ∀ t : Fin grid0.N, win0_0.index t 0 = t.val / 3 ∧ win0_0.index t 1 = t.val % 3)
theorem idx1 : ∀ t : Fin cfg0.N, win0_1.index t 0 = t.val / 3 ∧ win0_1.index t 1 = 0 :=
  (by decide +kernel : ∀ t : Fin grid0.N, win0_1.index t 0 = t.val / 3 ∧ win0_1.index t 1 = 0)
theorem idx2 : ∀ t : Fin cfg0.N, win0_2.index t 0 = t.val / 3 ∧ win0_2.index t 1 = 0 :=
  (by decide +kernel : ∀ t : Fin grid0.N, win0_2.index t 0 = t.val / 3 ∧ win0_2.index t 1 = 0)
theorem idx3 : ∀ t : Fin cfg0.N, win0_3.index t 0 = t.val / 3 ∧ win0_3.index t 1 = 0 :=
  (by decide +kernel : ∀ t : Fin grid0.N, win0_3.index t 0 = t.val / 3 ∧ win0_3.index t 1 = 0)
theorem coord1 : ∀ t : Fin cfg0.N, (grid0.coords t 1).val = t.val % 3 :=
  (by decide +kernel : ∀ t : Fin grid0.N, (grid0.coords t 1).val = t.val % 3)

theorem tN (t : Fin cfg0.N) : t.val < 96 := lt_of_lt_of_eq t.isLt N_0

/-- The three input blocks at a grid point, at their literal types. -/
abbrev xblk (c : Dev nD) (t : Fin cfg0.N) : Vec Ideal S64x42752 .bf16 := iblk m c 0 t
abbrev lblk (c : Dev nD) (t : Fin cfg0.N) : Vec Ideal S64x1 .i32 := iblk m c 1 t
abbrev rblk (c : Dev nD) (t : Fin cfg0.N) : Vec Ideal S64x1 .f32 := iblk m c 2 t

/-- The array row that row `p` of a grid point's blocks holds. -/
def rowOf (t : Fin cfg0.N) (p : Fin 64) : Fin 2048 := ⟨64 * (t.val / 3) + p.val, by have := tN t; have := p.isLt; omega⟩

theorem xblk_at (c : Dev nD) (t : Fin cfg0.N) (p : Fin 64) (j : Fin 42752) :
    xblk m c t (ix2 p j) = xrow m c (rowOf t p) ⟨42752 * (t.val % 3) + j.val, by have := j.isLt; omega⟩ := by
  have hi := idx0 t
  show iblk m c 0 t (ix2 p j) = _
  unfold iblk
  rw [View.read_apply]
  show (V m c main_v0 : S2048x128256.Idx → EReal) (((cfg0.win 0).blk t).view.emb (ix2 p j)) = _
  refine Eq.trans ?_ (V_v0_at m c (rowOf t p) _)
  congr 1
  funext a
  apply Fin.ext
  match a with
  | ⟨0, _⟩ => show win0_0.index t 0 * 64 + 1 * p.val = 64 * (t.val / 3) + p.val; rw [hi.1]; omega
  | ⟨1, _⟩ => show win0_0.index t 1 * 42752 + 1 * j.val = 42752 * (t.val % 3) + j.val; rw [hi.2]; omega

theorem lblk_at (c : Dev nD) (t : Fin cfg0.N) (p : Fin 64) :
    lblk m c t (ix2 p (0 : Fin 1)) = lab m c (rowOf t p) := by
  have hi := idx1 t
  show iblk m c 1 t (ix2 p (0 : Fin 1)) = _
  unfold iblk
  rw [View.read_apply]
  show (V m c main_v1 : S2048x1.Idx → BitVec 32) (((cfg0.win 1).blk t).view.emb (ix2 p (0 : Fin 1))) = _
  refine Eq.trans ?_ (V_v1_at m c (rowOf t p))
  congr 1
  funext a
  apply Fin.ext
  match a with
  | ⟨0, _⟩ => show win0_1.index t 0 * 64 + 1 * p.val = 64 * (t.val / 3) + p.val; rw [hi.1]; omega
  | ⟨1, _⟩ => show win0_1.index t 1 * 1 + 1 * 0 = 0; rw [hi.2]

theorem rblk_at (c : Dev nD) (t : Fin cfg0.N) (p : Fin 64) :
    rblk m c t (ix2 p (0 : Fin 1)) = rf m c (rowOf t p) := by
  have hi := idx2 t
  show iblk m c 2 t (ix2 p (0 : Fin 1)) = _
  unfold iblk
  rw [View.read_apply]
  show (V m c main_v2 : S2048x1.Idx → EReal) (((cfg0.win 2).blk t).view.emb (ix2 p (0 : Fin 1))) = _
  refine Eq.trans ?_ (V_v2_at m c (rowOf t p))
  congr 1
  funext a
  apply Fin.ext
  match a with
  | ⟨0, _⟩ => show win0_2.index t 0 * 64 + 1 * p.val = 64 * (t.val / 3) + p.val; rw [hi.1]; omega
  | ⟨1, _⟩ => show win0_2.index t 1 * 1 + 1 * 0 = 0; rw [hi.2]

/-! ## The running columns after each grid point -/

/-- One grid point on a row, with the grid's own blocks: from the triple after `2 (t % 3)` chunks of the row to the
    triple after `2 (t % 3) + 2`. -/
theorem point_cols (c : Dev nD) (t : Fin cfg0.N) (p : Fin 64) (ms ls ss : Vec Ideal S64x1 .f32)
    (hm : ms (ix2 p (0 : Fin 1)) = (st (xrow m c (rowOf t p)) (lab m c (rowOf t p)) (2 * (t.val % 3))).1)
    (hl : ls (ix2 p (0 : Fin 1)) = (st (xrow m c (rowOf t p)) (lab m c (rowOf t p)) (2 * (t.val % 3))).2.1)
    (hs : ss (ix2 p (0 : Fin 1)) = (st (xrow m c (rowOf t p)) (lab m c (rowOf t p)) (2 * (t.val % 3))).2.2) :
    loopM (xblk m c t) ms (ix2 p (0 : Fin 1)) = (st (xrow m c (rowOf t p)) (lab m c (rowOf t p)) (2 * (t.val % 3) + 2)).1
    ∧ loopL (xblk m c t) ms ls (ix2 p (0 : Fin 1)) = (st (xrow m c (rowOf t p)) (lab m c (rowOf t p)) (2 * (t.val % 3) + 2)).2.1
    ∧ loopS (BitVec.ofNat 32 (grid0.coords t 1).val) (xblk m c t) (lblk m c t) ss (ix2 p (0 : Fin 1))
        = (st (xrow m c (rowOf t p)) (lab m c (rowOf t p)) (2 * (t.val % 3) + 2)).2.2 := by
  have h := point_step (xblk m c t) (lblk m c t) ms ls ss ⟨t.val % 3, Nat.mod_lt _ (by omega)⟩ p
    (xrow m c (rowOf t p)) (lab m c (rowOf t p)) (fun j => xblk_at m c t p j) (lblk_at m c t p) hm hl hs
  rw [coord1 t]
  exact h

/-- The columns a grid point leaves, stated for the point's three scratch components. -/
def ColsAt (c : Dev nD) (n : ℕ) (h : n < cfg0.N) (p : Fin 64) : Prop :=
  (outsAt0 m c n h).2.1 (ix2 p (0 : Fin 1)) = (st (xrow m c (rowOf ⟨n, h⟩ p)) (lab m c (rowOf ⟨n, h⟩ p)) (2 * (n % 3) + 2)).1
  ∧ (outsAt0 m c n h).2.2.1 (ix2 p (0 : Fin 1)) = (st (xrow m c (rowOf ⟨n, h⟩ p)) (lab m c (rowOf ⟨n, h⟩ p)) (2 * (n % 3) + 2)).2.1
  ∧ (outsAt0 m c n h).2.2.2 (ix2 p (0 : Fin 1)) = (st (xrow m c (rowOf ⟨n, h⟩ p)) (lab m c (rowOf ⟨n, h⟩ p)) (2 * (n % 3) + 2)).2.2

/-- At a row block's first grid step the columns start from (−∞, 0, 0). -/
theorem cols_A (c : Dev nD) (t : Fin cfg0.N) (h0 : t.val % 3 = 0) (p : Fin 64) : ColsAt m c t.val t.isLt p := by
  have h1 : ¬t.val % 3 = 2 := by omega
  unfold ColsAt
  rw [outsAt0_A m c t h0 h1]
  dsimp only
  rw [sout_A_0 (F := Ideal) c (grid0.coords t) (ms0_0 t) (hs0_0 t) (ms0_1 t) (hs0_1 t) (ms0_2 t) (hs0_2 t) (ms0_3 t) (hs0_3 t) (iblk m c 0 t) (iblk m c 1 t) (iblk m c 2 t),
    sout_A_1 (F := Ideal) c (grid0.coords t) (ms0_0 t) (hs0_0 t) (ms0_1 t) (hs0_1 t) (ms0_2 t) (hs0_2 t) (ms0_3 t) (hs0_3 t) (iblk m c 0 t) (iblk m c 1 t) (iblk m c 2 t),
    sout_A_2 (F := Ideal) c (grid0.coords t) (ms0_0 t) (hs0_0 t) (ms0_1 t) (hs0_1 t) (ms0_2 t) (hs0_2 t) (ms0_3 t) (hs0_3 t) (iblk m c 0 t) (iblk m c 1 t) (iblk m c 2 t)]
  have hk : 2 * (t.val % 3) = 0 := by omega
  have := point_cols m c t p (k0_pay1 (F := Ideal)) (k0_pay2 (F := Ideal)) (k0_pay3 (F := Ideal))
    (by rw [hk]; exact pay1_at p) (by rw [hk]; exact pay2_at p) (by rw [hk]; exact pay3_at p)
  exact this

/-- The hypothesis at the point before, moved to this point's row and chunk count (the two points share a row block). -/
theorem prev_cols (c : Dev nD) (t : Fin cfg0.N) (h0 : ¬t.val % 3 = 0) (p : Fin 64)
    (ih : ColsAt m c (t.val - 1) (Nat.lt_of_le_of_lt (Nat.sub_le _ _) t.isLt) p) :
    (outsAt0 m c (t.val - 1) (Nat.lt_of_le_of_lt (Nat.sub_le _ _) t.isLt)).2.1 (ix2 p (0 : Fin 1)) = (st (xrow m c (rowOf t p)) (lab m c (rowOf t p)) (2 * (t.val % 3))).1
    ∧ (outsAt0 m c (t.val - 1) (Nat.lt_of_le_of_lt (Nat.sub_le _ _) t.isLt)).2.2.1 (ix2 p (0 : Fin 1)) = (st (xrow m c (rowOf t p)) (lab m c (rowOf t p)) (2 * (t.val % 3))).2.1
    ∧ (outsAt0 m c (t.val - 1) (Nat.lt_of_le_of_lt (Nat.sub_le _ _) t.isLt)).2.2.2 (ix2 p (0 : Fin 1)) = (st (xrow m c (rowOf t p)) (lab m c (rowOf t p)) (2 * (t.val % 3))).2.2 := by
  have hN := tN t
  have hr : rowOf ⟨t.val - 1, Nat.lt_of_le_of_lt (Nat.sub_le _ _) t.isLt⟩ p = rowOf t p :=
    Fin.ext (by show 64 * ((t.val - 1) / 3) + p.val = 64 * (t.val / 3) + p.val; omega)
  have hk : 2 * ((t.val - 1) % 3) + 2 = 2 * (t.val % 3) := by omega
  unfold ColsAt at ih
  rw [hr, hk] at ih
  exact ih

/-- A middle grid step of a row block continues from the columns the step before left. -/
theorem cols_B (c : Dev nD) (t : Fin cfg0.N) (h0 : ¬t.val % 3 = 0) (h1 : ¬t.val % 3 = 2) (p : Fin 64)
    (ih : ColsAt m c (t.val - 1) (Nat.lt_of_le_of_lt (Nat.sub_le _ _) t.isLt) p) : ColsAt m c t.val t.isLt p := by
  have hp := prev_cols m c t h0 p ih
  unfold ColsAt
  rw [outsAt0_B m c t h0 h1]
  dsimp only
  rw [sout_B_0 (F := Ideal) c (grid0.coords t) (ms0_0 t) (hs0_0 t) (ms0_1 t) (hs0_1 t) (ms0_2 t) (hs0_2 t) (ms0_3 t) (hs0_3 t) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_B_1 (F := Ideal) c (grid0.coords t) (ms0_0 t) (hs0_0 t) (ms0_1 t) (hs0_1 t) (ms0_2 t) (hs0_2 t) (ms0_3 t) (hs0_3 t) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_B_2 (F := Ideal) c (grid0.coords t) (ms0_0 t) (hs0_0 t) (ms0_1 t) (hs0_1 t) (ms0_2 t) (hs0_2 t) (ms0_3 t) (hs0_3 t) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  exact point_cols m c t p _ _ _ hp.1 hp.2.1 hp.2.2

/-- So does the last one. -/
theorem cols_C (c : Dev nD) (t : Fin cfg0.N) (h0 : ¬t.val % 3 = 0) (h1 : t.val % 3 = 2) (p : Fin 64)
    (ih : ColsAt m c (t.val - 1) (Nat.lt_of_le_of_lt (Nat.sub_le _ _) t.isLt) p) : ColsAt m c t.val t.isLt p := by
  have hp := prev_cols m c t h0 p ih
  unfold ColsAt
  rw [outsAt0_C m c t h0 h1]
  dsimp only
  rw [sout_C_0 (F := Ideal) c (grid0.coords t) (ms0_0 t) (hs0_0 t) (ms0_1 t) (hs0_1 t) (ms0_2 t) (hs0_2 t) (ms0_3 t) (hs0_3 t) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_C_1 (F := Ideal) c (grid0.coords t) (ms0_0 t) (hs0_0 t) (ms0_1 t) (hs0_1 t) (ms0_2 t) (hs0_2 t) (ms0_3 t) (hs0_3 t) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    sout_C_2 (F := Ideal) c (grid0.coords t) (ms0_0 t) (hs0_0 t) (ms0_1 t) (hs0_1 t) (ms0_2 t) (hs0_2 t) (ms0_3 t) (hs0_3 t) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  exact point_cols m c t p _ _ _ hp.1 hp.2.1 hp.2.2

/-- THE RUNNING COLUMNS AT EVERY GRID POINT, by induction on the point. -/
theorem cols_all (c : Dev nD) : ∀ (n : ℕ) (h : n < cfg0.N) (p : Fin 64), ColsAt m c n h p := by
  intro n
  induction n with
  | zero => intro h p; exact cols_A m c ⟨0, h⟩ rfl p
  | succ n ih =>
    intro h p
    by_cases h0 : (n + 1) % 3 = 0
    · exact cols_A m c ⟨n + 1, h⟩ h0 p
    · by_cases h1 : (n + 1) % 3 = 2
      · exact cols_C m c ⟨n + 1, h⟩ h0 h1 p (ih (Nat.lt_of_succ_lt h) p)
      · exact cols_B m c ⟨n + 1, h⟩ h0 h1 p (ih (Nat.lt_of_succ_lt h) p)

/-! ## The output column -/

/-- A row's contribution: the token's loss times its clipped importance ratio, from the row's log-softmax at its label. -/
def contribRow (c : Dev nD) (t : Fin 2048) : EReal :=
  contrib (logp (xrow m c t) (lab m c t)) (lab m c t) (rf m c t)

/-- The output array the kernel fills: the rows' contributions as a column. -/
def Gcol (c : Dev nD) : (⟨S2048x1, .f32⟩ : BufTy).Contents (Elt Ideal) :=
  fun i => contribRow m c ⟨(i 0).val, idx2_lt0 i⟩

/-- At a row block's last grid step the output block's row `p` is the row's contribution (the logits being real). -/
theorem out_row (c : Dev nD) (hfin : ∀ (r : Fin 2048) (j : Fin 128256), ∃ a : ℝ, xrow m c r j = (a : EReal))
    (t : Fin cfg0.N) (h0 : ¬t.val % 3 = 0) (h1 : t.val % 3 = 2) (p : Fin 64) :
    k0_pay7 (F := Ideal) (lblk m c t)
        (loopS (BitVec.ofNat 32 (grid0.coords t 1).val) (xblk m c t) (lblk m c t) (outsAt0 m c (t.val - 1) (Nat.lt_of_le_of_lt (Nat.sub_le _ _) t.isLt)).2.2.2)
        (loopM (xblk m c t) (outsAt0 m c (t.val - 1) (Nat.lt_of_le_of_lt (Nat.sub_le _ _) t.isLt)).2.1)
        (loopL (xblk m c t) (outsAt0 m c (t.val - 1) (Nat.lt_of_le_of_lt (Nat.sub_le _ _) t.isLt)).2.1 (outsAt0 m c (t.val - 1) (Nat.lt_of_le_of_lt (Nat.sub_le _ _) t.isLt)).2.2.1)
        (rblk m c t) (ix2 p (0 : Fin 1))
      = contribRow m c (rowOf t p) := by
  have hp := prev_cols m c t h0 p (cols_all m c _ _ p)
  obtain ⟨eM, eL, eS⟩ := point_cols m c t p _ _ _ hp.1 hp.2.1 hp.2.2
  rw [pay7_at, eM, eL, eS, lblk_at, rblk_at]
  have hk : 2 * (t.val % 3) + 2 = 6 := by omega
  rw [hk, st_six (xrow m c (rowOf t p)) (hfin (rowOf t p)) (lab m c (rowOf t p))]
  dsimp only
  unfold contribRow logp
  rfl

/-- The same at any index of the output block. -/
theorem out_row' (c : Dev nD) (hfin : ∀ (r : Fin 2048) (j : Fin 128256), ∃ a : ℝ, xrow m c r j = (a : EReal))
    (t : Fin cfg0.N) (h0 : ¬t.val % 3 = 0) (h1 : t.val % 3 = 2) (y : S64x1.Idx) :
    k0_pay7 (F := Ideal) (lblk m c t)
        (loopS (BitVec.ofNat 32 (grid0.coords t 1).val) (xblk m c t) (lblk m c t) (outsAt0 m c (t.val - 1) (Nat.lt_of_le_of_lt (Nat.sub_le _ _) t.isLt)).2.2.2)
        (loopM (xblk m c t) (outsAt0 m c (t.val - 1) (Nat.lt_of_le_of_lt (Nat.sub_le _ _) t.isLt)).2.1)
        (loopL (xblk m c t) (outsAt0 m c (t.val - 1) (Nat.lt_of_le_of_lt (Nat.sub_le _ _) t.isLt)).2.1 (outsAt0 m c (t.val - 1) (Nat.lt_of_le_of_lt (Nat.sub_le _ _) t.isLt)).2.2.1)
        (rblk m c t) y
      = contribRow m c (rowOf t ⟨(y 0).val, idx2_lt0 y⟩) := by
  obtain ⟨p, q, rfl⟩ : ∃ (p : Fin 64) (q : Fin 1), y = ix2 p q := ⟨y 0, y 1, eq_ix2 y⟩
  obtain rfl : q = 0 := Subsingleton.elim _ _
  exact out_row m c hfin t h0 h1 p

/-- An index of the output array is in a grid point's block iff each coordinate is in the block's range. -/
theorem mem_blk3 (t : Fin cfg0.N) (i : S2048x1.Idx) :
    i ∈ ((cfg0.win 3).blk t).view.set ↔ ∀ a : Fin 2, win0_3.index t a * S64x1.size a ≤ (i a).val ∧ (i a).val < win0_3.index t a * S64x1.size a + S64x1.size a := by
  show i ∈ ((View.whole main_v3).slice (win0_3.rect t)).set ↔ _
  rw [View.set_slice_whole, Rect.mem_set_unit]
  exact Iff.rfl

/-- WHAT A ROW BLOCK'S LAST GRID STEP WRITES BACK is that block of the contribution column. -/
theorem flushed3_eq (c : Dev nD) (hfin : ∀ (r : Fin 2048) (j : Fin 128256), ∃ a : ℝ, xrow m c r j = (a : EReal))
    (t : Fin cfg0.N) (hf : (cfg0.win 3).flush t = true) :
    (dats m 0 c).flushed 3 t = ((cfg0.win 3).blk t).view.read (Elt Ideal) (Gcol m c) := by
  have h1 : t.val % 3 = 2 := (flush0_3 t).mp hf
  have h0 : ¬t.val % 3 = 0 := by omega
  have hi := idx3 t
  show (cfg0.win 3).cut (grid0.coords t) ((dats m 0 c).after 3 t) = _
  rw [after0_3, outsAt0_C m c t h0 h1]
  dsimp only
  rw [out_C_3 (F := Ideal) c (grid0.coords t) (ms0_0 t) (hs0_0 t) (ms0_1 t) (hs0_1 t) (ms0_2 t) (hs0_2 t) (ms0_3 t) (hs0_3 t) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
  funext y
  refine (out_row' m c hfin t h0 h1 y).trans ?_
  show contribRow m c _ = contribRow m c _
  congr 1
  apply Fin.ext
  show 64 * (t.val / 3) + (y 0).val = win0_3.index t 0 * 64 + 1 * (y 0).val
  rw [hi.1]; omega

/-- THE OUTPUT ARRAY after the run: the contribution column (every row is in its row block's last grid step's block). -/
theorem final3 (c : Dev nD) (hfin : ∀ (r : Fin 2048) (j : Fin 128256), ∃ a : ℝ, xrow m c r j = (a : EReal)) :
    (dats m 0 c).arrAt 3 cfg0.N = Gcol m c :=
  (dats m 0 c).arrAt_eq_of_cover 3 (Gcol m c) (flushed3_eq m c hfin) fun i => by
    have hi0 : (i 0).val < 2048 := (i 0).isLt
    have hi1 : (i 1).val < 1 := (i 1).isLt
    have hlt : 3 * ((i 0).val / 64) + 2 < cfg0.N := by rw [show cfg0.N = 96 from N_0]; omega
    refine ⟨⟨3 * ((i 0).val / 64) + 2, hlt⟩, (flush0_3 _).mpr (by show (3 * ((i 0).val / 64) + 2) % 3 = 2; omega), ?_⟩
    rw [mem_blk3]
    have hx := idx3 ⟨3 * ((i 0).val / 64) + 2, hlt⟩
    intro a
    match a with
    | ⟨0, _⟩ =>
      show win0_3.index ⟨3 * ((i 0).val / 64) + 2, hlt⟩ 0 * 64 ≤ (i 0).val ∧ (i 0).val < win0_3.index ⟨3 * ((i 0).val / 64) + 2, hlt⟩ 0 * 64 + 64
      rw [hx.1]; show (3 * ((i 0).val / 64) + 2) / 3 * 64 ≤ (i 0).val ∧ (i 0).val < (3 * ((i 0).val / 64) + 2) / 3 * 64 + 64; omega
    | ⟨1, _⟩ =>
      show win0_3.index ⟨3 * ((i 0).val / 64) + 2, hlt⟩ 1 * 1 ≤ (i 1).val ∧ (i 1).val < win0_3.index ⟨3 * ((i 0).val / 64) + 2, hlt⟩ 1 * 1 + 1
      rw [hx.2]; omega

/-! ## The host tail -/

/-- A sum over a column's indices is the sum over its rows; a sum over a row's indices the sum over its columns. -/
theorem sum_colIdx {M : Type*} [AddCommMonoid M] {n : Nat} (f : (⟨2, ![n, 1]⟩ : Shape).Idx → M) :
    ∑ i, f i = ∑ t : Fin n, f (ix2 t (0 : Fin 1)) := by
  rw [sum_idx2]
  exact Finset.sum_congr rfl fun t _ => Fin.sum_univ_one _
theorem sum_rowIdx {M : Type*} [AddCommMonoid M] {n : Nat} (f : (⟨2, ![1, n]⟩ : Shape).Idx → M) :
    ∑ i, f i = ∑ t : Fin n, f (ix2 (0 : Fin 1) t) := by
  rw [sum_idx2, Fin.sum_univ_one]

/-- The host's float sum of a whole array into a scalar, over the extended reals: the initial value plus every entry. -/
theorem hostSum_total {s : Shape} {axes : List (Fin s.rank)} (h : s.ReducesTo axes S_) (x : s.Idx → EReal)
    (init : S_.Idx → EReal) (hu : 0 < S_.numel) (i : S_.Idx) :
    Host.reduceAdd (F := Ideal) (φ := .f32) x init h hu i = init (Shape.Idx.first hu) + ∑ j : s.Idx, x j := by
  simp only [Host.reduceAdd, Ideal.hostReduceAdd_def]
  exact Ideal.hostReduceAdd_total h (fun b => b.elim0) x _ i

/-- THE KERNEL'S RESULT: the host lines after the region sum the contribution column, count the rows not ignored and
    divide: the shared total of the argument rows. -/
theorem tail_v9 (c : Dev nD) (hfin : ∀ (r : Fin 2048) (j : Fin 128256), ∃ a : ℝ, xrow m c r j = (a : EReal)) :
    Pipeline.afterTail₀ cfgs (dats m) 0 (V0 m) [hostOps1] c main_v9 = fun _ => total (xrow m c) (lab m c) (rf m c) := by
  unfold Pipeline.afterTail₀
  show StableHlo.after hostOps1 _ (Proc.devRef .tc main_v9) = _
  after_results
  have w3 : Pipeline.withArrays (cfgs 0).spec c (V0 m c) (fun w => (dats m 0 c).arrAt w (cfgs 0).N) (Proc.tc.devRef main_v3) = Gcol m c :=
    (Pipeline.withArrays_arr spec0 launch0.win.arr_inj c _ _ 3).trans (final3 m c hfin)
  have wl : Pipeline.withArrays (cfgs 0).spec c (V0 m c) (fun w => (dats m 0 c).arrAt w (cfgs 0).N) (Proc.tc.devRef main_arg2) = argL m c :=
    (Pipeline.withArrays_of_ne _ c (V0 m c) _ main_arg2 (by exact (by decide : ∀ w, Pipeline.arrRef spec0 w ≠ main_arg2))).trans (V_main_arg2 m c)
  rw [w3, wl]
  funext i
  show FloatOps.hostDivf _ _ = _
  rw [Ideal.hostDivf_def, hostSum_total, hostSum_total]
  unfold total
  refine congrArg₂ Ideal.div ?_ ?_
  · show Ideal.ofBits .f32 0x00000000#32 + _ = _
    rw [Ideal.ofBits_zero_f32, zero_add, sum_colIdx]
    rfl
  · show Ideal.ofBits .f32 0x00000000#32 + _ = _
    rw [Ideal.ofBits_zero_f32, zero_add, sum_rowIdx]
    rfl

/-! ## The run, read -/

/-- Every weakly fair execution of the idealized kernel terminates with its result at the shared total of the argument
    rows (the logits being real) and its arguments unchanged. -/
theorem run (hfin : ∀ (c : Dev nD) (r : Fin 2048) (j : Fin 128256), ∃ a : ℝ, xrow m c r j = (a : EReal)) :
    θ_run defs (onTc (τ := τ) (main (F := Ideal))) ⟨m, fun _ => 0, ρ⟩ fun r => ∀ c : Dev nD,
      r.2.mem ((c.tc : Thread nD τ).loc main_v9) = (fun _ => total (xrow m c) (lab m c) (rf m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v9 (Pipeline.mem_restRefs_of main_v9 (by decide) (by decide))).trans (tail_v9 m c (hfin c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.KValue

end
-- ==== Proof.RefRunS.lean ====
/-
  The reference program's run, read stage by stage.

  The reference is a straight line of 76 host operations. Its line is cut at the calls it makes into four stretches:
  the conversion and log-softmax of the logits; the ignore test and the clipped label; the gather of the log-softmax at
  the clipped label; and the loss, the ratio, the two sums and the quotient. What each stretch leaves in the buffers
  the later ones read is the corresponding stage of the reference as a function of the three arguments, whatever the
  other buffers held; the stretches do not write the buffers they only pass along. Composing the four gives the result
  buffer after the whole line as the last stage of the arguments, and the arguments unchanged.
-/
import proofs.«414979_j79559974191144_3_alg».proof.Proof.RefRead
import Idealize.ShloMosaic.Lib.StableHlo.Run
import Idealize.ShloMosaic.Lib.Pipeline.Frame

noncomputable section

namespace Cert.ReferenceIdeal.RunS

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The four stretches of the line -/

/-- The logits widened, and their log-softmax along the vocabulary axis. -/
abbrev opsA : List (HloOp τ sig (Elt F)) :=
  [ unary main_arg0 main_v0 ((extf .f32 · bitsLt_bf16_f32) : (⟨S1x2048x128256, .bf16⟩ : BufTy).Contents (Elt F) → (⟨S1x2048x128256, .f32⟩ : BufTy).Contents (Elt F)),
    TRef.nullary (TRef.of (T := ⟨S_, .f32⟩) main_call0_cst) (constant S_ .f32 0xFF800000#32),
    TRef.binary (TRef.of (T := ⟨S1x2048x128256, .f32⟩) main_v0) (TRef.of (T := ⟨S_, .f32⟩) main_call0_cst) (TRef.of (T := ⟨S1x2048, .f32⟩) main_call0_v0) (fun x v => Host.reduce FloatOps.maximumf x v reducesTo_S1x2048x128256_S1x2048_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S1x2048, .f32⟩) main_call0_v1) (broadcastInDim S1x2048 ![] bcast_S_S1x2048),
    TRef.binary (TRef.of (T := ⟨S1x2048, .f32⟩) main_call0_v1) (TRef.of (T := ⟨S1x2048, .f32⟩) main_call0_v0) (TRef.of (T := ⟨S1x2048, .f32⟩) main_call0_v2) maximumf,
    TRef.unary (TRef.of (T := ⟨S1x2048, .f32⟩) main_call0_v2) (TRef.of (T := ⟨S1x2048x1, .f32⟩) main_call0_v3) (broadcastInDim S1x2048x1 ![0, 1] bcast_S1x2048_S1x2048x1_0_1),
    TRef.unary (TRef.of (T := ⟨S1x2048x1, .f32⟩) main_call0_v3) (TRef.of (T := ⟨S1x2048x128256, .f32⟩) main_call0_v4) (broadcastInDim S1x2048x128256 ![0, 1, 2] bcast_S1x2048x1_S1x2048x128256_0_1_2),
    TRef.binary (TRef.of (T := ⟨S1x2048x128256, .f32⟩) main_v0) (TRef.of (T := ⟨S1x2048x128256, .f32⟩) main_call0_v4) (TRef.of (T := ⟨S1x2048x128256, .f32⟩) main_call0_v5) subf,
    TRef.unary (TRef.of (T := ⟨S1x2048x128256, .f32⟩) main_call0_v5) (TRef.of (T := ⟨S1x2048x128256, .f32⟩) main_call0_v6) Host.exp,
    TRef.nullary (TRef.of (T := ⟨S_, .f32⟩) main_call0_cst_1) (constant S_ .f32 0x00000000#32),
    TRef.binary (TRef.of (T := ⟨S1x2048x128256, .f32⟩) main_call0_v6) (TRef.of (T := ⟨S_, .f32⟩) main_call0_cst_1) (TRef.of (T := ⟨S1x2048, .f32⟩) main_call0_v7) (fun x v => Host.reduceAdd x v reducesTo_S1x2048x128256_S1x2048_d2 h_S_),
    TRef.unary (TRef.of (T := ⟨S1x2048, .f32⟩) main_call0_v7) (TRef.of (T := ⟨S1x2048x1, .f32⟩) main_call0_v8) (broadcastInDim S1x2048x1 ![0, 1] bcast_S1x2048_S1x2048x1_0_1),
    TRef.unary (TRef.of (T := ⟨S1x2048x1, .f32⟩) main_call0_v8) (TRef.of (T := ⟨S1x2048x1, .f32⟩) main_call0_v9) Host.log,
    TRef.unary (TRef.of (T := ⟨S1x2048x1, .f32⟩) main_call0_v9) (TRef.of (T := ⟨S1x2048x128256, .f32⟩) main_call0_v10) (broadcastInDim S1x2048x128256 ![0, 1, 2] bcast_S1x2048x1_S1x2048x128256_0_1_2),
    TRef.binary (TRef.of (T := ⟨S1x2048x128256, .f32⟩) main_call0_v5) (TRef.of (T := ⟨S1x2048x128256, .f32⟩) main_call0_v10) (TRef.of (T := ⟨S1x2048x128256, .f32⟩) main_v1) subf ]

/-- The test "label is the ignore word", the label clipped into the valid columns, and the clipped label as a column. -/
abbrev opsB : List (HloOp τ sig (Elt F)) :=
  [ nullary main_c (constantI S_ 32 4294967196#32),
    unary main_c main_v2 (broadcastInDim S1x2048 ![] bcast_S_S1x2048 : (⟨S_, .i32⟩ : BufTy).Contents (Elt F) → (⟨S1x2048, .i32⟩ : BufTy).Contents (Elt F)),
    binary main_arg2 main_v2 main_v3 (cmpi .eq : (⟨S1x2048, .i32⟩ : BufTy).Contents (Elt F) → (⟨S1x2048, .i32⟩ : BufTy).Contents (Elt F) → (⟨S1x2048, .i1⟩ : BufTy).Contents (Elt F)),
    nullary main_c_0 (constantI S_ 32 0#32),
    nullary main_c_1 (constantI S_ 32 128255#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S1x2048, .i32⟩) main_call1_v1) (broadcastInDim S1x2048 ![] bcast_S_S1x2048),
    TRef.binary (TRef.of (T := ⟨S1x2048, .i32⟩) main_call1_v1) (TRef.of (T := ⟨S1x2048, .i32⟩) main_arg2) (TRef.of (T := ⟨S1x2048, .i32⟩) main_call1_v2) maxsi,
    TRef.unary (TRef.of (T := ⟨S_, .i32⟩) main_c_1) (TRef.of (T := ⟨S_, .i32⟩) main_call1_v3) id,
    TRef.unary (TRef.of (T := ⟨S_, .i32⟩) main_call1_v3) (TRef.of (T := ⟨S1x2048, .i32⟩) main_call1_v4) (broadcastInDim S1x2048 ![] bcast_S_S1x2048),
    TRef.binary (TRef.of (T := ⟨S1x2048, .i32⟩) main_call1_v4) (TRef.of (T := ⟨S1x2048, .i32⟩) main_call1_v2) (TRef.of (T := ⟨S1x2048, .i32⟩) main_v4) minsi,
    unary main_v4 main_v5 (broadcastInDim S1x2048x1 ![0, 1] bcast_S1x2048_S1x2048x1_0_1 : (⟨S1x2048, .i32⟩ : BufTy).Contents (Elt F) → (⟨S1x2048x1, .i32⟩ : BufTy).Contents (Elt F)) ]

/-- The log-softmax gathered at the clipped label, row by row. -/
abbrev opsC : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S1x2048x1, .i32⟩) main_call2_v0) (broadcastInDim S1x2048x1 ![] bcast_S_S1x2048x1),
    TRef.binary (TRef.of (T := ⟨S1x2048x1, .i32⟩) main_v5) (TRef.of (T := ⟨S1x2048x1, .i32⟩) main_call2_v0) (TRef.of (T := ⟨S1x2048x1, .i1⟩) main_call2_v1) (cmpi .slt),
    TRef.nullary (TRef.of (T := ⟨S_, .i32⟩) main_call2_c_0) (constantI S_ 32 128256#32),
    TRef.unary (TRef.of (T := ⟨S_, .i32⟩) main_call2_c_0) (TRef.of (T := ⟨S1x2048x1, .i32⟩) main_call2_v2) (broadcastInDim S1x2048x1 ![] bcast_S_S1x2048x1),
    TRef.binary (TRef.of (T := ⟨S1x2048x1, .i32⟩) main_v5) (TRef.of (T := ⟨S1x2048x1, .i32⟩) main_call2_v2) (TRef.of (T := ⟨S1x2048x1, .i32⟩) main_call2_v3) addi,
    TRef.ternary (TRef.of (T := ⟨S1x2048x1, .i1⟩) main_call2_v1) (TRef.of (T := ⟨S1x2048x1, .i32⟩) main_call2_v3) (TRef.of (T := ⟨S1x2048x1, .i32⟩) main_v5) (TRef.of (T := ⟨S1x2048x1, .i32⟩) main_call2_v4) select,
    TRef.reshape (TRef.of (T := ⟨S1x2048x1, .i32⟩) main_call2_v4) (TRef.of (T := ⟨S2048x1x1, .i32⟩) main_call2_v5) rfl shapeCasts_S1x2048x1_S2048x1x1,
    TRef.nullary (TRef.of (T := ⟨S1, .i32⟩) main_call2_c_1) (constantI S1 32 128255#32),
    TRef.nullary (TRef.of (T := ⟨S_, .i32⟩) main_call2_c_2) (constantI S_ 32 0#32),
    TRef.unary (TRef.of (T := ⟨S_, .i32⟩) main_call2_c_2) (TRef.of (T := ⟨S2048x1x1, .i32⟩) main_call2_v6) (broadcastInDim S2048x1x1 ![] bcast_S_S2048x1x1),
    TRef.binary (TRef.of (T := ⟨S2048x1x1, .i32⟩) main_call2_v5) (TRef.of (T := ⟨S2048x1x1, .i32⟩) main_call2_v6) (TRef.of (T := ⟨S2048x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S2048x1x1, .i32⟩) main_call2_v9) (broadcastInDim S2048x1x1 ![0, 1, 2] bcast_S1x1x1_S2048x1x1_0_1_2),
    TRef.binary (TRef.of (T := ⟨S2048x1x1, .i32⟩) main_call2_v5) (TRef.of (T := ⟨S2048x1x1, .i32⟩) main_call2_v9) (TRef.of (T := ⟨S2048x1x1, .i1⟩) main_call2_v10) (cmpi .sle),
    TRef.binary (TRef.of (T := ⟨S2048x1x1, .i1⟩) main_call2_v7) (TRef.of (T := ⟨S2048x1x1, .i1⟩) main_call2_v10) (TRef.of (T := ⟨S2048x1x1, .i1⟩) main_call2_v11) andi,
    TRef.nullary (TRef.of (T := ⟨S_, .i1⟩) main_call2_c_3) (constantI S_ 1 1#1),
    TRef.binary (TRef.of (T := ⟨S2048x1x1, .i1⟩) main_call2_v11) (TRef.of (T := ⟨S_, .i1⟩) main_call2_c_3) (TRef.of (T := ⟨S2048x1, .i1⟩) main_call2_v12) (fun x v => Host.reduce IntOp.andi x v reducesTo_S2048x1x1_S2048x1_d2 h_S_),
    TRef.binary (TRef.of (T := ⟨S1x2048x128256, .f32⟩) main_v1) (TRef.of (T := ⟨S2048x1x1, .i32⟩) main_call2_v5) (TRef.of (T := ⟨S1x2048x1, .f32⟩) main_call2_v13) (fun x i => Host.gather gather_S1x2048x128256_S2048x1x1_S1x2048x1_0_2_1_0_2_2_111 x i),
    TRef.unary (TRef.of (T := ⟨S2048x1, .i1⟩) main_call2_v12) (TRef.of (T := ⟨S1x2048x1, .i1⟩) main_call2_v14) (broadcastInDim S1x2048x1 ![1, 2] bcast_S2048x1_S1x2048x1_1_2),
    TRef.nullary (TRef.of (T := ⟨S_, .f32⟩) main_call2_cst) (constant S_ .f32 0x7FC00000#32),
    TRef.unary (TRef.of (T := ⟨S_, .f32⟩) main_call2_cst) (TRef.of (T := ⟨S1x2048x1, .f32⟩) main_call2_v15) (broadcastInDim S1x2048x1 ![] bcast_S_S1x2048x1),
    TRef.ternary (TRef.of (T := ⟨S1x2048x1, .i1⟩) main_call2_v14) (TRef.of (T := ⟨S1x2048x1, .f32⟩) main_call2_v13) (TRef.of (T := ⟨S1x2048x1, .f32⟩) main_call2_v15) (TRef.of (T := ⟨S1x2048x1, .f32⟩) main_v6) select ]

/-- The loss, the clipped importance ratio, their product summed over the rows, the count of the rows not ignored, the quotient. -/
abbrev opsD : List (HloOp τ sig (Elt F)) :=
  [ reshape main_v6 main_v7 rfl shapeCasts_S1x2048x1_S1x2048,
    unary main_v7 main_v8 (Host.negf : (⟨S1x2048, .f32⟩ : BufTy).Contents (Elt F) → (⟨S1x2048, .f32⟩ : BufTy).Contents (Elt F)),
    nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S1x2048, .f32⟩) main_call3_v1) (broadcastInDim S1x2048 ![] bcast_S_S1x2048),
    TRef.ternary (TRef.of (T := ⟨S1x2048, .i1⟩) main_v3) (TRef.of (T := ⟨S1x2048, .f32⟩) main_call3_v1) (TRef.of (T := ⟨S1x2048, .f32⟩) main_v8) (TRef.of (T := ⟨S1x2048, .f32⟩) main_v9) select,
    binary main_v7 main_arg1 main_v10 (subf : (⟨S1x2048, .f32⟩ : BufTy).Contents (Elt F) → (⟨S1x2048, .f32⟩ : BufTy).Contents (Elt F) → (⟨S1x2048, .f32⟩ : BufTy).Contents (Elt F)),
    unary main_v10 main_v11 (Host.exp : (⟨S1x2048, .f32⟩ : BufTy).Contents (Elt F) → (⟨S1x2048, .f32⟩ : BufTy).Contents (Elt F)),
    nullary main_cst_2 (constant S_ .f32 0x3F800000#32),
    TRef.unary (TRef.of (T := ⟨S_, .f32⟩) main_cst_2) (TRef.of (T := ⟨S_, .f32⟩) main_call4_v0) id,
    TRef.unary (TRef.of (T := ⟨S_, .f32⟩) main_call4_v0) (TRef.of (T := ⟨S1x2048, .f32⟩) main_call4_v1) (broadcastInDim S1x2048 ![] bcast_S_S1x2048),
    TRef.ternary (TRef.of (T := ⟨S1x2048, .i1⟩) main_v3) (TRef.of (T := ⟨S1x2048, .f32⟩) main_call4_v1) (TRef.of (T := ⟨S1x2048, .f32⟩) main_v11) (TRef.of (T := ⟨S1x2048, .f32⟩) main_v12) select,
    nullary main_cst_3 (constant S_ .f32 0x00000000#32),
    TRef.unary (TRef.of (T := ⟨S_, .f32⟩) main_cst_3) (TRef.of (T := ⟨S_, .f32⟩) main_call5_v0) id,
    TRef.unary (TRef.of (T := ⟨S_, .f32⟩) main_call5_v0) (TRef.of (T := ⟨S1x2048, .f32⟩) main_call5_v1) (broadcastInDim S1x2048 ![] bcast_S_S1x2048),
    TRef.binary (TRef.of (T := ⟨S1x2048, .f32⟩) main_call5_v1) (TRef.of (T := ⟨S1x2048, .f32⟩) main_v12) (TRef.of (T := ⟨S1x2048, .f32⟩) main_v13) maximumf,
    binary main_v9 main_v13 main_v14 (mulf : (⟨S1x2048, .f32⟩ : BufTy).Contents (Elt F) → (⟨S1x2048, .f32⟩ : BufTy).Contents (Elt F) → (⟨S1x2048, .f32⟩ : BufTy).Contents (Elt F)),
    nullary main_cst_4 (constant S_ .f32 0x00000000#32),
    binary main_v14 main_cst_4 main_v15 ((fun x v => Host.reduceAdd x v reducesTo_S1x2048_S_d0_1 h_S_) : (⟨S1x2048, .f32⟩ : BufTy).Contents (Elt F) → (⟨S_, .f32⟩ : BufTy).Contents (Elt F) → (⟨S_, .f32⟩ : BufTy).Contents (Elt F)),
    unary main_v3 main_v16 (noti : (⟨S1x2048, .i1⟩ : BufTy).Contents (Elt F) → (⟨S1x2048, .i1⟩ : BufTy).Contents (Elt F)),
    unary main_v16 main_v17 ((extui 32 · natLt_1_32) : (⟨S1x2048, .i1⟩ : BufTy).Contents (Elt F) → (⟨S1x2048, .i32⟩ : BufTy).Contents (Elt F)),
    nullary main_c_5 (constantI S_ 32 0#32),
    binary main_v17 main_c_5 main_v18 ((fun x v => Host.reduce IntOp.addi x v reducesTo_S1x2048_S_d0_1 h_S_) : (⟨S1x2048, .i32⟩ : BufTy).Contents (Elt F) → (⟨S_, .i32⟩ : BufTy).Contents (Elt F) → (⟨S_, .i32⟩ : BufTy).Contents (Elt F)),
    unary main_v18 main_v19 (sitofp .f32 : (⟨S_, .i32⟩ : BufTy).Contents (Elt F) → (⟨S_, .f32⟩ : BufTy).Contents (Elt F)),
    binary main_v15 main_v19 main_v20 (Host.divf : (⟨S_, .f32⟩ : BufTy).Contents (Elt F) → (⟨S_, .f32⟩ : BufTy).Contents (Elt F) → (⟨S_, .f32⟩ : BufTy).Contents (Elt F)) ]

set_option maxRecDepth 8192 in
theorem ops_cut : (ops : List (HloOp τ sig (Elt F))) = opsA ++ (opsB ++ (opsC ++ opsD)) := rfl

/-! ## What each stretch leaves -/

/-- Contents moved to a typed reference's buffer type and back are unchanged. -/
theorem ofBuf_toBuf {Val : EltTy → Type} {T : BufTy} (x : TRef sig T) (v : T.Contents Val) : x.ofBuf (x.toBuf v) = v := by
  show cast _ (cast _ v) = v
  rw [cast_cast, cast_eq]

set_option maxRecDepth 8192 in
theorem stA (V : Valuation τ sig (Elt F)) :
    after (opsA (F := F)) V (Proc.devRef .tc main_v1) = val_main_v1 (F := F) (V (Proc.devRef .tc main_arg0)) := by
  after_results
  simp only [ofBuf_toBuf]
  rfl
theorem keepA_arg0 (V : Valuation τ sig (Elt F)) : after (opsA (F := F)) V (Proc.devRef .tc main_arg0) = V (Proc.devRef .tc main_arg0) := by
  after_results
theorem keepA_arg1 (V : Valuation τ sig (Elt F)) : after (opsA (F := F)) V (Proc.devRef .tc main_arg1) = V (Proc.devRef .tc main_arg1) := by
  after_results
theorem keepA_arg2 (V : Valuation τ sig (Elt F)) : after (opsA (F := F)) V (Proc.devRef .tc main_arg2) = V (Proc.devRef .tc main_arg2) := by
  after_results

theorem stB_v3 (V : Valuation τ sig (Elt F)) :
    after (opsB (F := F)) V (Proc.devRef .tc main_v3) = val_main_v3 (F := F) (V (Proc.devRef .tc main_arg2)) := by
  after_results
  rfl
theorem stB_v5 (V : Valuation τ sig (Elt F)) :
    after (opsB (F := F)) V (Proc.devRef .tc main_v5) = val_main_v5 (F := F) (V (Proc.devRef .tc main_arg2)) := by
  after_results
  rfl
theorem keepB_v1 (V : Valuation τ sig (Elt F)) : after (opsB (F := F)) V (Proc.devRef .tc main_v1) = V (Proc.devRef .tc main_v1) := by
  after_results
theorem keepB_arg0 (V : Valuation τ sig (Elt F)) : after (opsB (F := F)) V (Proc.devRef .tc main_arg0) = V (Proc.devRef .tc main_arg0) := by
  after_results
theorem keepB_arg1 (V : Valuation τ sig (Elt F)) : after (opsB (F := F)) V (Proc.devRef .tc main_arg1) = V (Proc.devRef .tc main_arg1) := by
  after_results
theorem keepB_arg2 (V : Valuation τ sig (Elt F)) : after (opsB (F := F)) V (Proc.devRef .tc main_arg2) = V (Proc.devRef .tc main_arg2) := by
  after_results

set_option maxRecDepth 8192 in
set_option maxHeartbeats 4000000 in
theorem stC (V : Valuation τ sig (Elt F)) (a0 : (⟨S1x2048x128256, .bf16⟩ : BufTy).Contents (Elt F)) (a2 : (⟨S1x2048, .i32⟩ : BufTy).Contents (Elt F))
    (h1 : V (Proc.devRef .tc main_v1) = val_main_v1 (F := F) a0) (h5 : V (Proc.devRef .tc main_v5) = val_main_v5 (F := F) a2) :
    after (opsC (F := F)) V (Proc.devRef .tc main_v6) = val_main_v6 (F := F) a0 a2 := by
  after_results
  simp only [ofBuf_toBuf]
  rw [h1, h5]
  rfl
theorem keepC_v3 (V : Valuation τ sig (Elt F)) : after (opsC (F := F)) V (Proc.devRef .tc main_v3) = V (Proc.devRef .tc main_v3) := by
  after_results
theorem keepC_arg0 (V : Valuation τ sig (Elt F)) : after (opsC (F := F)) V (Proc.devRef .tc main_arg0) = V (Proc.devRef .tc main_arg0) := by
  after_results
theorem keepC_arg1 (V : Valuation τ sig (Elt F)) : after (opsC (F := F)) V (Proc.devRef .tc main_arg1) = V (Proc.devRef .tc main_arg1) := by
  after_results
theorem keepC_arg2 (V : Valuation τ sig (Elt F)) : after (opsC (F := F)) V (Proc.devRef .tc main_arg2) = V (Proc.devRef .tc main_arg2) := by
  after_results

set_option maxRecDepth 8192 in
set_option maxHeartbeats 4000000 in
theorem stD (V : Valuation τ sig (Elt F)) (a0 : (⟨S1x2048x128256, .bf16⟩ : BufTy).Contents (Elt F)) (a1 : (⟨S1x2048, .f32⟩ : BufTy).Contents (Elt F)) (a2 : (⟨S1x2048, .i32⟩ : BufTy).Contents (Elt F))
    (h6 : V (Proc.devRef .tc main_v6) = val_main_v6 (F := F) a0 a2) (h3 : V (Proc.devRef .tc main_v3) = val_main_v3 (F := F) a2)
    (h1 : V (Proc.devRef .tc main_arg1) = a1) :
    after (opsD (F := F)) V (Proc.devRef .tc main_v20) = val_main_v20 (F := F) a0 a1 a2 := by
  after_results
  simp only [ofBuf_toBuf]
  rw [h6, h3, h1]
  rfl
theorem keepD_arg0 (V : Valuation τ sig (Elt F)) : after (opsD (F := F)) V (Proc.devRef .tc main_arg0) = V (Proc.devRef .tc main_arg0) := by
  after_results
theorem keepD_arg1 (V : Valuation τ sig (Elt F)) : after (opsD (F := F)) V (Proc.devRef .tc main_arg1) = V (Proc.devRef .tc main_arg1) := by
  after_results
theorem keepD_arg2 (V : Valuation τ sig (Elt F)) : after (opsD (F := F)) V (Proc.devRef .tc main_arg2) = V (Proc.devRef .tc main_arg2) := by
  after_results

/-! ## The whole line -/

/-- After the whole line the result buffer holds the last stage of the three arguments. -/
theorem after_v20 (V : Valuation τ sig (Elt F)) :
    after (ops (F := F)) V (Proc.devRef .tc main_v20)
      = val_main_v20 (F := F) (V (Proc.devRef .tc main_arg0)) (V (Proc.devRef .tc main_arg1)) (V (Proc.devRef .tc main_arg2)) := by
  rw [ops_cut, StableHlo.after_append, StableHlo.after_append, StableHlo.after_append]
  refine stD _ _ _ _ ?_ ?_ ?_
  · exact stC _ _ _ ((keepB_v1 _).trans (stA V)) ((stB_v5 _).trans (congrArg _ (keepA_arg2 V)))
  · exact (keepC_v3 _).trans ((stB_v3 _).trans (congrArg _ (keepA_arg2 V)))
  · exact (keepC_arg1 _).trans ((keepB_arg1 _).trans (keepA_arg1 V))

/-- The line writes none of the arguments. -/
theorem after_arg0 (V : Valuation τ sig (Elt F)) : after (ops (F := F)) V (Proc.devRef .tc main_arg0) = V (Proc.devRef .tc main_arg0) := by
  rw [ops_cut, StableHlo.after_append, StableHlo.after_append, StableHlo.after_append]
  exact (keepD_arg0 _).trans ((keepC_arg0 _).trans ((keepB_arg0 _).trans (keepA_arg0 V)))
theorem after_arg1 (V : Valuation τ sig (Elt F)) : after (ops (F := F)) V (Proc.devRef .tc main_arg1) = V (Proc.devRef .tc main_arg1) := by
  rw [ops_cut, StableHlo.after_append, StableHlo.after_append, StableHlo.after_append]
  exact (keepD_arg1 _).trans ((keepC_arg1 _).trans ((keepB_arg1 _).trans (keepA_arg1 V)))
theorem after_arg2 (V : Valuation τ sig (Elt F)) : after (ops (F := F)) V (Proc.devRef .tc main_arg2) = V (Proc.devRef .tc main_arg2) := by
  rw [ops_cut, StableHlo.after_append, StableHlo.after_append, StableHlo.after_append]
  exact (keepD_arg2 _).trans ((keepC_arg2 _).trans ((keepB_arg2 _).trans (keepA_arg2 V)))

/-- On every device, from any memory with zero counters: every weakly fair execution of the reference terminates with
    its result at the last stage of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = val_main_v20 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v20).trans (after_v20 _),
      (h c main_arg0).trans (after_arg0 _),
      (h c main_arg1).trans (after_arg1 _),
      (h c main_arg2).trans (after_arg2 _)⟩)
    (run_seq scopedRefs_eq scopedSems_eq defs main (fun _ => ops) main_eq (fun _ => ops_sub) m ρ)

end Cert.ReferenceIdeal.RunS

end
-- ==== Proof.RefLogp.lean ====
/-
  The reference program's selected log-probability, read at one row, over the extended reals.

  For a row `t` the reference forms the log-softmax of the row of logits, `x − max x − log Σ exp (x − max x)`, and
  takes its entry at the label clipped (signed) into the columns [0, 128255]. Three operations are not elementwise:
  the maximum over the column axis is the fold of `max` from −∞ over the row; the gather of one entry per row reads
  the row at its start index, read signed and clamped into the columns; the and over the unit axis of the start
  index's range test is that test. The start index is the clipped label: it is not negative, so the wrap of a
  negative index by the number of columns leaves it; it is a column, so the range test holds, the clamp leaves it,
  and the selected entry is the log-softmax at the clipped label. No finiteness is assumed: `max ⊥ y = y` and
  `0 + s = s`.
-/
import proofs.«414979_j79559974191144_3_alg».proof.Proof.RefRead
import proofs.«414979_j79559974191144_3_alg».proof.Proof.Spec
import Idealize.ShloMosaic.PureOps.Dims
import Idealize.ShloMosaic.PureOps.ShapeOps
import Idealize.ShloMosaic.PureOps.Reduce
import Idealize.ShloMosaic.PureOps.Ideal
import Idealize.ShloMosaic.PureOps.Ideal.Laws
import Idealize.ShloMosaic.Lib.ValueIdx
import Mathlib.Data.EReal.Basic
import Mathlib.Algebra.Group.Defs
import Mathlib.Order.BoundedOrder.Lattice
import Mathlib.Data.Finset.Fold
import Mathlib.Data.Finset.BooleanAlgebra

noncomputable section

open scoped BigOperators

namespace Cert.ReferenceIdeal.RefLogp

open Cert.ReferenceIdeal Cert.ReferenceIdeal.Gen Cert.ReferenceIdeal.ReadP Cert.Xent Idealize.ShloMosaic Idealize.ShloMosaic.ValueIdx

/-! ## The three operations that are not elementwise -/

/-- The gather of one entry per row, read at row `t`: the operand's entry of that row at the column the start index
    names, the start index read signed and clamped into the columns. -/
theorem gather_row {α : Type} {w : Nat} (x : S1x2048x128256.Idx → α) (idx : IVec S2048x1x1 w) (t : Fin 2048) :
    Host.gather gather_S1x2048x128256_S2048x1x1_S1x2048x1_0_2_1_0_2_2_111 x idx (ix3 (0 : Fin 1) t (0 : Fin 1))
      = x (ix3 (0 : Fin 1) t
          ⟨min (idx (ix3 t (0 : Fin 1) (0 : Fin 1))).toInt.toNat (128256 - 1), by omega⟩) := by
  unfold Host.gather
  congr 1
  funext a
  refine Fin.ext ?_
  match a with
  | ⟨0, _⟩ =>
    rfl
  | ⟨1, _⟩ =>
    show 0 + t.val + 0 = t.val
    omega
  | ⟨2, h2⟩ =>
    show GatherDims.start gather_S1x2048x128256_S2048x1x1_S1x2048x1_0_2_1_0_2_2_111 (ix3 (0 : Fin 1) t (0 : Fin 1)) idx ⟨2, h2⟩ + 0 + 0 = _
    unfold GatherDims.start
    rw [dif_pos (show (⟨2, h2⟩ : Fin S1x2048x128256.rank) ∈ gather_S1x2048x128256_S2048x1x1_S1x2048x1_0_2_1_0_2_2_111.startIndexMap
      from List.mem_singleton.mpr rfl)]
    have hsi : gather_S1x2048x128256_S2048x1x1_S1x2048x1_0_2_1_0_2_2_111.siIdx (ix3 (0 : Fin 1) t (0 : Fin 1))
        ⟨List.idxOf (⟨2, h2⟩ : Fin S1x2048x128256.rank) gather_S1x2048x128256_S2048x1x1_S1x2048x1_0_2_1_0_2_2_111.startIndexMap,
          List.idxOf_lt_length_iff.2 (List.mem_singleton.mpr rfl)⟩ = ix3 t (0 : Fin 1) (0 : Fin 1) := by
      funext b; refine Fin.ext ?_
      match b with
      | ⟨0, _⟩ => rfl
      | ⟨1, _⟩ => rfl
      | ⟨2, _⟩ => rfl
    rw [hsi]
    rfl

/-- The column axis dropped from the logits' shape leaves the rows' shape. -/
theorem reduces_cols : S1x2048x128256.Reduces [2] S1x2048 := by decide

/-- A maximum-reduce over the column axis, read at row `t`: the fold of `max` from the initial value over the
    row's columns. -/
theorem reduce_max_row (x : S1x2048x128256.Idx → EReal) (init : S_.Idx → EReal) (t : Fin 2048) :
    Host.reduce (FloatOps.maximumf (F := Ideal) (φ := .f32)) x init reducesTo_S1x2048x128256_S1x2048_d2 h_S_
        (ix2 (0 : Fin 1) t)
      = (Finset.univ : Finset (Fin 128256)).fold max (init (Shape.Idx.first h_S_))
          (fun k => x (ix3 (0 : Fin 1) t k)) := by
  have h := Host.reduce_eq_fold_single (s := S1x2048x128256) (t := S1x2048) (a := (2 : Fin 3)) (u := S_)
    (FloatOps.maximumf (F := Ideal) (φ := .f32)) x init reducesTo_S1x2048x128256_S1x2048_d2 reduces_cols h_S_ (ix2 (0 : Fin 1) t)
  have hf : (x ∘ reduces_cols.lift (ix2 (0 : Fin 1) t)) = fun k : Fin 128256 => x (ix3 (0 : Fin 1) t k) := by
    funext k
    refine congrArg x (funext fun c => Fin.ext ?_)
    match c with
    | ⟨0, _⟩ => rfl
    | ⟨1, _⟩ => rfl
    | ⟨2, _⟩ => rfl
  rw [hf] at h
  exact h

/-- The unit axis dropped from the start indices' shape. -/
theorem reduces_unit : S2048x1x1.Reduces [2] S2048x1 := by decide

/-- An and-reduce over the unit axis, read at row `t`: the one entry of that row and the initial value. -/
theorem reduce_and_row (x : S2048x1x1.Idx → BitVec 1) (init : S_.Idx → BitVec 1) (t : Fin 2048) :
    Host.reduce IntOp.andi x init reducesTo_S2048x1x1_S2048x1_d2 h_S_ (ix2 t (0 : Fin 1))
      = IntOp.andi (x (ix3 t (0 : Fin 1) (0 : Fin 1))) (init (Shape.Idx.first h_S_)) := by
  have h := Host.reduce_eq_fold_single (s := S2048x1x1) (t := S2048x1) (a := (2 : Fin 3)) (u := S_)
    IntOp.andi x init reducesTo_S2048x1x1_S2048x1_d2 reduces_unit h_S_ (ix2 t (0 : Fin 1))
  have hf : (x ∘ reduces_unit.lift (ix2 t (0 : Fin 1))) = fun k : Fin 1 => x (ix3 t (0 : Fin 1) k) := by
    funext k
    refine congrArg x (funext fun c => Fin.ext ?_)
    match c with
    | ⟨0, _⟩ => rfl
    | ⟨1, _⟩ => rfl
    | ⟨2, _⟩ => rfl
  rw [hf] at h
  rw [h]
  show Finset.fold IntOp.andi (init (Shape.Idx.first h_S_)) (fun k : Fin 1 => x (ix3 t (0 : Fin 1) k))
    (Finset.univ : Finset (Fin 1)) = _
  rw [Finset.univ_unique, Finset.fold_singleton]
  rfl

/-! ## The clipped label as a word -/

/-- The clipped label read as a signed integer is its unsigned value: it is below 2³¹. -/
theorem clipw_toInt (b : BitVec 32) : (clipw b).toInt = ((clipw b).toNat : Int) := by
  have h := clipw_lt b
  unfold BitVec.toInt
  rw [if_pos (by omega)]

/-- The clipped label is not negative. -/
theorem clipw_slt_zero (b : BitVec 32) : IntOp.cmpi .slt (clipw b) 0#32 = 0#1 := by
  have h : (clipw b).slt 0#32 = false := by
    rw [BitVec.slt, clipw_toInt]
    simp
  show BitVec.ofBool ((clipw b).slt 0#32) = 0#1
  rw [h]; rfl

/-- The clipped label is at least zero. -/
theorem clipw_sge_zero (b : BitVec 32) : IntOp.cmpi .sge (clipw b) 0#32 = 1#1 := by
  have h : (0#32 : BitVec 32).sle (clipw b) = true := by
    rw [BitVec.sle, clipw_toInt]
    simp
  show BitVec.ofBool ((0#32 : BitVec 32).sle (clipw b)) = 1#1
  rw [h]; rfl

/-- The clipped label is at most the last column. -/
theorem clipw_sle_last (b : BitVec 32) : IntOp.cmpi .sle (clipw b) 128255#32 = 1#1 := by
  have hlt := clipw_lt b
  have h : (clipw b).sle 128255#32 = true := by
    rw [BitVec.sle, clipw_toInt]
    simp [BitVec.toInt]
    omega
  show BitVec.ofBool ((clipw b).sle 128255#32) = 1#1
  rw [h]; rfl

/-- Read signed and clamped into the columns, the clipped label is itself. -/
theorem clipw_clamp (b : BitVec 32) : min (clipw b).toInt.toNat (128256 - 1) = (clipw b).toNat := by
  have hlt := clipw_lt b
  rw [clipw_toInt, Int.toNat_natCast]
  omega

/-! ## The label side: start index, range mask, gather -/

section Stages
variable (x0 : (⟨S1x2048x128256, .bf16⟩ : BufTy).Contents (Elt Ideal)) (x2 : (⟨S1x2048, .i32⟩ : BufTy).Contents (Elt Ideal))

/-- The clipped labels, with a unit axis appended, read at row `t`. -/
theorem label_row (t : Fin 2048) :
    val_main_v5 (F := Ideal) x2 (ix3 (0 : Fin 1) t (0 : Fin 1)) = clipw (x2 (ix2 (0 : Fin 1) t)) := by
  have hi : idx_main_v5 (ix3 (0 : Fin 1) t (0 : Fin 1)) = ix2 (0 : Fin 1) t := by
    funext a
    match a with
    | ⟨0, _⟩ => rfl
    | ⟨1, _⟩ => rfl
  rw [val_main_v5_apply, hi, val_main_v4_apply, val_main_call1_v4_apply, val_main_call1_v3_apply, val_main_c_1_apply,
    val_main_call1_v2_apply, val_main_call1_v1_apply, val_main_call1_v0_apply, val_main_c_0_apply]
  rfl

/-- The start indices of the gather (the clipped labels, wrapped if negative, reshaped to rows first) read at row `t`:
    the clipped label, since it is not negative. -/
theorem start_row (t : Fin 2048) :
    val_main_call2_v5 (F := Ideal) x2 (ix3 t (0 : Fin 1) (0 : Fin 1)) = clipw (x2 (ix2 (0 : Fin 1) t)) := by
  have hi : idx_main_call2_v5 (ix3 t (0 : Fin 1) (0 : Fin 1)) = ix3 (0 : Fin 1) t (0 : Fin 1) := by
    funext a
    match a with
    | ⟨0, _⟩ => rfl
    | ⟨1, _⟩ =>
      refine Fin.ext ?_
      show ((t.val * 1 + 0) * 1 + 0) / 1 % 2048 = t.val
      have := t.isLt
      omega
    | ⟨2, _⟩ => rfl
  rw [val_main_call2_v5_apply, hi, val_main_call2_v4_apply, val_main_call2_v1_apply, label_row,
    val_main_call2_v0_apply, val_main_call2_c_apply, clipw_slt_zero]
  rfl

/-- The in-range mask of the gather at row `t` is set: the start index is the clipped label, which is a column. -/
theorem mask_row (t : Fin 2048) :
    val_main_call2_v14 (F := Ideal) x2 (ix3 (0 : Fin 1) t (0 : Fin 1)) = 1#1 := by
  have hi : idx_main_call2_v14 (ix3 (0 : Fin 1) t (0 : Fin 1)) = ix2 t (0 : Fin 1) := by
    funext a
    match a with
    | ⟨0, _⟩ => rfl
    | ⟨1, _⟩ => rfl
  rw [val_main_call2_v14_apply, hi]
  unfold val_main_call2_v12
  refine (reduce_and_row _ _ t).trans ?_
  rw [val_main_call2_v11_apply, val_main_call2_v7_apply, val_main_call2_v10_apply, start_row,
    val_main_call2_v6_apply, val_main_call2_c_2_apply, val_main_call2_v9_apply, val_main_call2_v8_apply,
    val_main_call2_c_1_apply, clipw_sge_zero, clipw_sle_last, val_main_call2_c_3_apply]
  rfl

/-- The gather at row `t` reads the log-softmax at the clipped label's column. -/
theorem gather_at (t : Fin 2048) :
    val_main_call2_v13 (F := Ideal) x0 x2 (ix3 (0 : Fin 1) t (0 : Fin 1))
      = val_main_v1 (F := Ideal) x0
          (ix3 (0 : Fin 1) t ⟨(clipw (x2 (ix2 (0 : Fin 1) t))).toNat, clipw_lt _⟩) := by
  unfold val_main_call2_v13
  refine (gather_row _ _ t).trans ?_
  refine congrArg (val_main_v1 (F := Ideal) x0) (congrArg (ix3 (0 : Fin 1) t) (Fin.ext ?_))
  show min (val_main_call2_v5 (F := Ideal) x2 (ix3 t (0 : Fin 1) (0 : Fin 1))).toInt.toNat (128256 - 1) = _
  rw [start_row, clipw_clamp]

end Stages

/-! ## The logits side: the log-softmax at an index, and the result -/

section Softmax
variable (x0 : (⟨S1x2048x128256, .bf16⟩ : BufTy).Contents (Elt Ideal))

/-- The word of −∞ read as an extended real. -/
theorem negInf_word : Ideal.ofBits .f32 0xFF800000#32 = ⊥ := by simp [Ideal.ofBits, Ideal.ieee]

/-- The row maximum, broadcast back over the columns, read at row `t`: the maximum of the reduce's result against
    −∞ is the reduce's result, the fold of `max` from −∞ over the row. -/
theorem rowmax_at (t : Fin 2048) (k : Fin 128256) :
    val_main_call0_v4 (F := Ideal) x0 (ix3 (0 : Fin 1) t k)
      = rowMax (fun j : Fin 128256 => x0 (ix3 (0 : Fin 1) t j)) := by
  have h4 : idx_main_call0_v4 (ix3 (0 : Fin 1) t k) = ix3 (0 : Fin 1) t (0 : Fin 1) := by
    funext a
    match a with
    | ⟨0, _⟩ => rfl
    | ⟨1, _⟩ => rfl
    | ⟨2, _⟩ => rfl
  have h3 : idx_main_call0_v3 (ix3 (0 : Fin 1) t (0 : Fin 1)) = ix2 (0 : Fin 1) t := by
    funext a
    match a with
    | ⟨0, _⟩ => rfl
    | ⟨1, _⟩ => rfl
  rw [val_main_call0_v4_apply, h4, val_main_call0_v3_apply, h3, val_main_call0_v2_apply, val_main_call0_v1_apply,
    val_main_call0_cst_0_apply]
  unfold val_main_call0_v0
  rw [reduce_max_row, val_main_call0_cst_apply]
  simp only [Ideal.maximumf_def, Ideal.ofBits_def, negInf_word, max_bot_left]
  rfl

/-- The logarithm of the row's sum of exponentials, broadcast back over the columns, read at row `t`: the sum
    starts from the zero word. -/
theorem logsum_at (t : Fin 2048) (k : Fin 128256) :
    val_main_call0_v10 (F := Ideal) x0 (ix3 (0 : Fin 1) t k)
      = Ideal.log (rowSum (fun j : Fin 128256 => x0 (ix3 (0 : Fin 1) t j))) := by
  have h10 : idx_main_call0_v10 (ix3 (0 : Fin 1) t k) = ix3 (0 : Fin 1) t (0 : Fin 1) := by
    funext a
    match a with
    | ⟨0, _⟩ => rfl
    | ⟨1, _⟩ => rfl
    | ⟨2, _⟩ => rfl
  have h8 : idx_main_call0_v8 (ix3 (0 : Fin 1) t (0 : Fin 1)) = ix2 (0 : Fin 1) t := by
    funext a
    match a with
    | ⟨0, _⟩ => rfl
    | ⟨1, _⟩ => rfl
  have h7 : ∀ j : Fin 128256, idx_main_call0_v7 (ix2 (0 : Fin 1) t) j = ix3 (0 : Fin 1) t j := by
    intro j
    funext a
    match a with
    | ⟨0, _⟩ => rfl
    | ⟨1, _⟩ => rfl
    | ⟨2, _⟩ => rfl
  rw [val_main_call0_v10_apply, h10, val_main_call0_v9_apply, val_main_call0_v8_apply, h8, val_main_call0_v7_apply,
    val_main_call0_cst_1_apply]
  simp only [h7, val_main_call0_v6_apply, val_main_call0_v5_apply, val_main_v0_apply, rowmax_at,
    Ideal.hostUnary_log_def, Ideal.hostUnary_exp_def, Ideal.subf_def, Ideal.extf_def, Ideal.ofBits_def,
    Ideal.ofBits_zero_f32, zero_add]
  rfl

/-- The log-softmax at row `t`, column `k`. -/
theorem logsoftmax_at (t : Fin 2048) (k : Fin 128256) :
    val_main_v1 (F := Ideal) x0 (ix3 (0 : Fin 1) t k)
      = x0 (ix3 (0 : Fin 1) t k) - rowMax (fun j : Fin 128256 => x0 (ix3 (0 : Fin 1) t j))
          - Ideal.log (rowSum (fun j : Fin 128256 => x0 (ix3 (0 : Fin 1) t j))) := by
  rw [val_main_v1_apply, val_main_call0_v5_apply, val_main_v0_apply, rowmax_at, logsum_at]
  simp only [Ideal.subf_def, Ideal.extf_def]

end Softmax

/-- The reference's selected log-probability at row `t`: the log-softmax of the row at the clipped label. -/
theorem ref_logp (x0 : (⟨S1x2048x128256, .bf16⟩ : BufTy).Contents (Elt Ideal)) (x2 : (⟨S1x2048, .i32⟩ : BufTy).Contents (Elt Ideal)) (t : Fin 2048) :
    val_main_v7 (F := Ideal) x0 x2 (ix2 (0 : Fin 1) t) = logp (fun j : Fin 128256 => x0 (ix3 (0 : Fin 1) t j)) (x2 (ix2 (0 : Fin 1) t)) := by
  have hi : idx_main_v7 (ix2 (0 : Fin 1) t) = ix3 (0 : Fin 1) t (0 : Fin 1) := by
    funext a
    match a with
    | ⟨0, _⟩ => rfl
    | ⟨1, _⟩ =>
      refine Fin.ext ?_
      show (0 * 2048 + t.val) / 1 % 2048 = t.val
      have := t.isLt
      omega
    | ⟨2, _⟩ => rfl
  rw [val_main_v7_apply, hi, val_main_v6_apply, mask_row, gather_at, logsoftmax_at]
  rfl

end Cert.ReferenceIdeal.RefLogp

end
-- ==== Proof.RefTotal.lean ====
/-
  The reference program's result from its per-row selected log-probability, over the extended reals.

  Row by row the reference multiplies the loss (zero at an ignored label, else the negated log-probability) by the
  importance ratio (one at an ignored label, else the exponential of the log-probability less the reference one)
  clipped below at zero: the shared per-row contribution. It sums those 2048 products from zero, counts the rows whose
  label is not the ignore word by summing the widened complements of the one-bit test "label = −100" as 32-bit words
  and reading the total as a signed integer, and divides the sum by the count.

  The count is the one place where machine words matter: a sum of 2048 words each 0 or 1 stays below 2³¹, so it
  neither wraps nor reads negative, and its signed value is the number of set bits; and the complement of the test
  "equal" is the test "not equal", whose unsigned values the shared count adds up.
-/
import proofs.«414979_j79559974191144_3_alg».proof.Proof.RefRead
import proofs.«414979_j79559974191144_3_alg».proof.Proof.Spec
import Idealize.ShloMosaic.PureOps.Ideal
import Idealize.ShloMosaic.PureOps.Ideal.Laws
import Idealize.ShloMosaic.PureOps.Reduce
import Idealize.ShloMosaic.Lib.StableHlo.Predicate
import Idealize.ShloMosaic.Lib.ValueIdx
import Mathlib.Data.EReal.Basic
import Mathlib.Algebra.BigOperators.Fin

noncomputable section

open scoped BigOperators

namespace Cert.ReferenceIdeal.RefTotal

open Cert.ReferenceIdeal Cert.ReferenceIdeal.ReadP Cert.Xent Idealize.ShloMosaic Idealize.ShloMosaic.ValueIdx
open Idealize.ShloMosaic.StableHlo.Predicate (toNat_fold_addi toInt_eq_toNat_of_lt)

/-! ## Words and sums -/

/-- A finite sum of naturals, read as an extended real, is the sum of the terms read so. -/
theorem coe_nat_sum {ι : Type} (S : Finset ι) (f : ι → ℕ) :
    (((∑ i ∈ S, f i : ℕ) : ℝ) : EReal) = ∑ i ∈ S, ((f i : ℝ) : EReal) := by
  induction S using Finset.cons_induction with
  | empty => simp
  | cons a S ha ih => rw [Finset.sum_cons, Finset.sum_cons, Nat.cast_add, EReal.coe_add, ih]

/-- The sum over a [1 × n] rectangle is the sum over its n columns. -/
theorem sum_row {M : Type*} [AddCommMonoid M] {n : Nat} (f : (⟨2, ![1, n]⟩ : Shape).Idx → M) :
    ∑ i, f i = ∑ t : Fin n, f (ix2 (0 : Fin 1) t) := by
  rw [sum_idx2, Fin.sum_univ_one]

/-- The complement of the one-bit test "equal" is the test "not equal". -/
theorem not_cmpi_eq {w : Nat} (a b : BitVec w) : ~~~(IntOp.cmpi .eq a b) = IntOp.cmpi .ne a b := by
  show ~~~(BitVec.ofBool (a == b)) = BitVec.ofBool (!(a == b))
  cases (a == b) <;> rfl

/-- Summing the widened bits of a [1 × n] mask over both axes, from zero, gives a word whose signed value is the
    sum of the bits' unsigned values, the number of set bits (n below 2³¹: the partial sums are bounded by the number
    of terms, so the word neither wraps nor reads negative). -/
theorem toInt_reduce_total {n : Nat} (hn : n < 2 ^ 31) (mask : IVec ⟨2, ![1, n]⟩ 1) (hw : 1 < 32)
    (h : (⟨2, ![1, n]⟩ : Shape).ReducesTo [0, 1] ⟨0, ![]⟩) {u : Shape} (init : u.Idx → BitVec 32) (hu : 0 < u.numel)
    (j : (⟨0, ![]⟩ : Shape).Idx) (hinit : init (Shape.Idx.first hu) = 0#32) :
    (Host.reduce IntOp.addi (extui 32 mask hw) init h hu j).toInt
      = ((∑ t : Fin n, (mask (ix2 (0 : Fin 1) t)).toNat : ℕ) : ℤ) := by
  classical
  rw [Host.reduce_eq_fold, hinit]
  -- into the scalar shape every index of the rectangle is folded
  have hall : (Finset.univ.filter fun i : (⟨2, ![1, n]⟩ : Shape).Idx => h.drop i = j) = Finset.univ :=
    Finset.filter_true_of_mem fun i _ => funext fun a => a.elim0
  rw [hall]
  -- a widened bit keeps its value
  have hval : ∀ i, (extui 32 mask hw i).toNat = (mask i).toNat := fun i => by
    show ((mask i).setWidth 32).toNat = _
    rcases BitVec.eq_zero_or_eq_one (mask i) with e | e <;> rw [e] <;> rfl
  have hsum : ∑ i : (⟨2, ![1, n]⟩ : Shape).Idx, (extui 32 mask hw i).toNat
      = ∑ t : Fin n, (mask (ix2 (0 : Fin 1) t)).toNat := by
    rw [sum_row]; exact Finset.sum_congr rfl fun t _ => hval _
  -- n bits sum to at most n
  have hle : ∑ t : Fin n, (mask (ix2 (0 : Fin 1) t)).toNat ≤ n := by
    calc ∑ t : Fin n, (mask (ix2 (0 : Fin 1) t)).toNat ≤ ∑ _t : Fin n, 1 :=
          Finset.sum_le_sum fun t _ => by have := (mask (ix2 (0 : Fin 1) t)).isLt; omega
      _ = n := by simp
  have hnat : (Finset.fold IntOp.addi 0#32 (extui 32 mask hw) Finset.univ).toNat
      = ∑ t : Fin n, (mask (ix2 (0 : Fin 1) t)).toNat := by
    rw [toNat_fold_addi _ _ (by rw [hsum]; omega), hsum]
  rw [toInt_eq_toNat_of_lt (by rw [hnat]; omega), hnat]

/-! ## A row's product -/

/-- The reference's per-row product, with the loss written as a negation and the clip as a maximum with zero on the
    left, is the shared contribution (which writes `0 − lp` and puts the zero on the right). -/
theorem contrib_form (lp r : EReal) (b : BitVec 32) :
    Scalar.select (IntOp.cmpi .eq b ignoreW) (Ideal.ofBits .f32 0x00000000#32) (-lp)
        * max (Ideal.ofBits .f32 0x00000000#32)
            (Scalar.select (IntOp.cmpi .eq b ignoreW) (Ideal.ofBits .f32 0x3F800000#32) (Ideal.exp (lp - r)))
      = contrib lp b r := by
  unfold contrib
  rw [Ideal.ofBits_zero_f32, zero_sub, max_comm]

section Stages

variable (x0 : (⟨S1x2048x128256, .bf16⟩ : BufTy).Contents (Elt Ideal))
  (x1 : (⟨S1x2048, .f32⟩ : BufTy).Contents (Elt Ideal)) (x2 : (⟨S1x2048, .i32⟩ : BufTy).Contents (Elt Ideal))

/-- Row `t` of the product stage is the contribution of the row's selected log-probability, label and reference
    log-probability. -/
theorem v14_row (t : Fin 2048) :
    val_main_v14 (F := Ideal) x0 x1 x2 (ix2 (0 : Fin 1) t)
      = contrib (val_main_v7 (F := Ideal) x0 x2 (ix2 (0 : Fin 1) t)) (x2 (ix2 (0 : Fin 1) t)) (x1 (ix2 (0 : Fin 1) t)) := by
  rw [val_main_v14_apply, val_main_v9_apply, val_main_v13_apply, val_main_v12_apply, val_main_v11_apply,
    val_main_v10_apply, val_main_v8_apply, val_main_v3_apply, val_main_v2_apply, val_main_c_apply,
    val_main_call3_v1_apply, val_main_call3_v0_apply, val_main_cst_apply,
    val_main_call4_v1_apply, val_main_call4_v0_apply, val_main_cst_2_apply,
    val_main_call5_v1_apply, val_main_call5_v0_apply, val_main_cst_3_apply]
  simp only [Ideal.mulf_def, Ideal.hostNegf_def, Ideal.negf_def, Ideal.maximumf_def, Ideal.hostUnary_exp_def,
    Ideal.subf_def, Ideal.ofBits_def]
  exact contrib_form _ _ _

/-! ## The sum, the count and the quotient -/

/-- The summed stage is the sum of the rows' contributions (the initial value is the zero word). -/
theorem v15_sum
    (h7 : ∀ t : Fin 2048, val_main_v7 (F := Ideal) x0 x2 (ix2 (0 : Fin 1) t)
      = logp (fun j : Fin 128256 => x0 (ix3 (0 : Fin 1) t j)) (x2 (ix2 (0 : Fin 1) t))) :
    val_main_v15 (F := Ideal) x0 x1 x2 ix0
      = ∑ t : Fin 2048, contrib (logp (fun j : Fin 128256 => x0 (ix3 (0 : Fin 1) t j)) (x2 (ix2 (0 : Fin 1) t)))
          (x2 (ix2 (0 : Fin 1) t)) (x1 (ix2 (0 : Fin 1) t)) := by
  rw [val_main_v15_apply, val_main_cst_4_apply, Ideal.ofBits_def, Ideal.ofBits_zero_f32, zero_add, sum_row]
  exact Finset.sum_congr rfl fun t _ => by rw [v14_row, h7]

/-- The converted count stage is the shared count of the rows whose label is not the ignore word. -/
theorem v19_count : val_main_v19 (F := Ideal) x2 ix0 = Cert.Xent.count (fun t => x2 (ix2 (0 : Fin 1) t)) := by
  rw [val_main_v19_apply]
  show (((val_main_v18 (F := Ideal) x2 ix0).toInt : ℝ) : EReal) = _
  unfold val_main_v18 val_main_v17
  rw [toInt_reduce_total (n := 2048) (by norm_num), Int.cast_natCast, coe_nat_sum]
  · unfold Cert.Xent.count
    refine Finset.sum_congr rfl fun t _ => ?_
    rw [val_main_v16_apply, val_main_v3_apply, val_main_v2_apply, val_main_c_apply, not_cmpi_eq]
    rfl
  · rfl

end Stages

/-- THE REFERENCE'S RESULT: the summed contributions of the rows over the count of the rows not ignored. -/
theorem ref_total (x0 : (⟨S1x2048x128256, .bf16⟩ : BufTy).Contents (Elt Ideal))
    (x1 : (⟨S1x2048, .f32⟩ : BufTy).Contents (Elt Ideal)) (x2 : (⟨S1x2048, .i32⟩ : BufTy).Contents (Elt Ideal))
    (h7 : ∀ t : Fin 2048, val_main_v7 (F := Ideal) x0 x2 (ix2 (0 : Fin 1) t)
      = logp (fun j : Fin 128256 => x0 (ix3 (0 : Fin 1) t j)) (x2 (ix2 (0 : Fin 1) t))) :
    val_main_v20 (F := Ideal) x0 x1 x2 ix0
      = total (fun t j => x0 (ix3 (0 : Fin 1) t j)) (fun t => x2 (ix2 (0 : Fin 1) t)) (fun t => x1 (ix2 (0 : Fin 1) t)) := by
  rw [val_main_v20_apply, Ideal.hostDivf_def, v15_sum x0 x1 x2 h7, v19_count]
  rfl

end Cert.ReferenceIdeal.RefTotal

end
-- ==== Proof.Finite.lean ====
/-
  From the printed finiteness precondition to "every logit is a real number", at the exact (extended-real) reading.

  The precondition is the conjunction of two all-quantified tests; its first conjunct says that at every index the
  absolute value of the logit, max x (−x), is strictly below +∞. Of the three kinds of extended real, −∞ and +∞ have
  absolute value +∞ and fail that strict test; what is left is a real number.
-/
import proofs.«414979_j79559974191144_3_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic

/-- The rank-0 shape has one index. -/
instance : Subsingleton Cert.Pre_finite_inputs.S_.Idx := ⟨fun a b => funext fun d => d.elim0⟩

/-- An extended real whose absolute value max x (−x) is strictly below the +∞ word is a real number. -/
theorem real_of_abs_lt (x : EReal)
    (e : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at e
  induction x using EReal.rec with
  | bot => simp [Ideal.cmp] at e
  | coe r => exact ⟨r, rfl⟩
  | top => simp [Ideal.cmp] at e

theorem logits_real [Cert.Pre_finite_inputs.Facts] (a0 : FVec Ideal Cert.Pre_finite_inputs.S1x2048x128256 .bf16) (a1 : FVec Ideal Cert.Pre_finite_inputs.S1x2048 .f32) (a2 : IVec Cert.Pre_finite_inputs.S1x2048 32)
    (h : Cert.Pre_finite_inputs.fn (F := Ideal) a0 a1 a2 = fun _ => 1#1) (i : Cert.Pre_finite_inputs.S1x2048x128256.Idx) : ∃ r : ℝ, a0 i = (r : EReal) := by
  have this := congrFun h ValueIdx.ix0
  dsimp only [Cert.Pre_finite_inputs.fn] at this
  have h1 := (IntOp.andi_eq_one.1 this).1
  exact real_of_abs_lt (a0 i) (Host.reduce_andi_all _ _ _ _ _ h1 i)

end Cert.Pre_finite_inputs.Finite

end
-- ==== Proof.lean ====
/-
  The claims of this certificate.

  Both programs compute, from 2048 rows of 128256 logits, a label per row and a reference log-probability per row, the
  sum over the rows of (loss × clipped importance ratio) divided by the number of rows whose label is not −100, where a
  row's loss and ratio come from its log-softmax at the clipped label, x[idx] − max x − log Σ exp (x − max x).

  The reference takes the row's maximum, sum and entry directly. The kernel streams each row in six chunks, keeping a
  running maximum m, a running sum l of exponentials about m, and a running selected entry, and rescales l by
  exp (m − m') whenever the maximum moves to m'. For real logits exp (m − m') · Σ exp (x − m) = Σ exp (x − m'), so after
  the last chunk the triple is the row's maximum, sum and entry: this is where the precondition (every float input
  finite) is used. Everything after that — the loss 0 − lp against −lp, the clip max (r, 0) against max (0, r), the sum
  over the rows from zero, the count as a float sum of one-bit tests against a signed integer sum of them, the final
  quotient — agrees term by term over the extended reals.

  The three frames are the programs' runs with the results forgotten; the idealization rewrote nothing.
-/
import proofs.«414979_j79559974191144_3_alg».proof.Defs
import proofs.«414979_j79559974191144_3_alg».proof.Proof.Gen.Kernel
import proofs.«414979_j79559974191144_3_alg».proof.Proof.Gen.Kernel.Skeleton
import proofs.«414979_j79559974191144_3_alg».proof.Proof.Gen.Kernel.Loops
import proofs.«414979_j79559974191144_3_alg».proof.Proof.Gen.Kernel.Launch
import proofs.«414979_j79559974191144_3_alg».proof.Proof.Gen.Kernel.Points
import proofs.«414979_j79559974191144_3_alg».proof.Proof.Gen.Kernel.Frame
import proofs.«414979_j79559974191144_3_alg».proof.Proof.Gen.KernelIdeal
import proofs.«414979_j79559974191144_3_alg».proof.Proof.Gen.KernelIdeal.Skeleton
import proofs.«414979_j79559974191144_3_alg».proof.Proof.Gen.KernelIdeal.Loops
import proofs.«414979_j79559974191144_3_alg».proof.Proof.Gen.KernelIdeal.Launch
import proofs.«414979_j79559974191144_3_alg».proof.Proof.Gen.KernelIdeal.Points
import proofs.«414979_j79559974191144_3_alg».proof.Proof.Gen.KernelIdeal.Frame
import proofs.«414979_j79559974191144_3_alg».proof.Proof.Gen.ReferenceIdeal
import proofs.«414979_j79559974191144_3_alg».proof.Proof.Gen.Pre_finite_inputs
import proofs.«414979_j79559974191144_3_alg».proof.Proof.KValue
import proofs.«414979_j79559974191144_3_alg».proof.Proof.RefRunS
import proofs.«414979_j79559974191144_3_alg».proof.Proof.RefRead
import proofs.«414979_j79559974191144_3_alg».proof.Proof.RefLogp
import proofs.«414979_j79559974191144_3_alg».proof.Proof.RefTotal
import proofs.«414979_j79559974191144_3_alg».proof.Proof.Finite
import Idealize.ShloMosaic.Adequacy
import Idealize.ShloMosaic.Init

noncomputable section

namespace Cert.Proof

open Idealize.ShloMosaic Idealize.ShloMosaic.ValueIdx Idealize.SL.Sem

/-- From memories agreeing on the arguments, the idealized kernel and the idealized reference both run and end at the
    same result: the summed contributions of the rows over the count of the rows not ignored. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  -- the precondition makes every logit a real number
  have hfin : ∀ (c : Dev Cert.KernelIdeal.nD) (r : Fin 2048) (j : Fin 128256),
      ∃ a : ℝ, Cert.KernelIdeal.KValue.xrow m c r j = (a : EReal) :=
    fun c r j => Cert.Pre_finite_inputs.Finite.logits_real _ _ _ (hpre c) (ix3 (0 : Fin 1) r j)
  refine ⟨fun c => fun _ => Cert.Xent.total (Cert.KernelIdeal.KValue.xrow m c) (Cert.KernelIdeal.KValue.lab m c)
      (Cert.KernelIdeal.KValue.rf m c), Cert.KernelIdeal.KValue.run m ρ hfin, ?_⟩
  refine (θ_run Cert.ReferenceIdeal.defs _ _).mono (fun _ h c => ⟨(h c).1.trans ?_, (h c).2⟩)
    (Cert.ReferenceIdeal.RunS.run (F := Ideal) m' ρ')
  rw [(hagree c).1, (hagree c).2.1, (hagree c).2.2]
  funext i
  obtain rfl := eq_ix0 i
  exact Cert.ReferenceIdeal.RefTotal.ref_total _ _ _ (fun t => Cert.ReferenceIdeal.RefLogp.ref_logp _ _ t)

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.RunS.run (F := Ideal) m ρ),
    trivial,
    algebraic⟩

end Cert.Proof

end
